-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x2048 : Shape := ⟨3, ![16, 64, 2048]⟩
abbrev S16x2048x8192 : Shape := ⟨3, ![16, 2048, 8192]⟩
abbrev S16x4096x2048 : Shape := ⟨3, ![16, 4096, 2048]⟩
abbrev S_ : Shape := ⟨0, ![]⟩

class Facts : Prop where
  bcast_S_S16x64x2048 : S_.BroadcastsInDim S16x64x2048 (![] : Fin 0 → Fin S16x64x2048.rank)
  reducesTo_S16x64x2048_S_d0_1_2 : S16x64x2048.ReducesTo [0, 1, 2] S_
  h_S_ : 0 < S_.numel
  bcast_S_S16x2048x8192 : S_.BroadcastsInDim S16x2048x8192 (![] : Fin 0 → Fin S16x2048x8192.rank)
  reducesTo_S16x2048x8192_S_d0_1_2 : S16x2048x8192.ReducesTo [0, 1, 2] S_
  bcast_S_S16x4096x2048 : S_.BroadcastsInDim S16x4096x2048 (![] : Fin 0 → Fin S16x4096x2048.rank)
  reducesTo_S16x4096x2048_S_d0_1_2 : S16x4096x2048.ReducesTo [0, 1, 2] S_

variable [Facts]

def fn {F : FTy → Type} [FloatOps F] (main_arg0 : FVec F S16x64x2048 .f32) (main_arg1 : FVec F S16x2048x8192 .f32) (main_arg2 : FVec F S16x4096x2048 .f32) : IVec S_ 1 :=
  let main_v0 : FVec F S16x64x2048 .f32 := Host.absf main_arg0
  let main_cst : FVec F S_ .f32 := constant S_ .f32 0x7F800000#32
  let main_v1 : FVec F S16x64x2048 .f32 := broadcastInDim S16x64x2048 ![] bcast_S_S16x64x2048 main_cst
  let main_v2 : IVec S16x64x2048 1 := cmpf .olt main_v0 main_v1
  let main_c : IVec S_ 1 := constantI S_ 1 1#1
  let main_v3 : IVec S_ 1 := (fun x v => Host.reduce IntOp.andi x v reducesTo_S16x64x2048_S_d0_1_2 h_S_) main_v2 main_c
  let main_v4 : FVec F S16x2048x8192 .f32 := Host.absf main_arg1
  let main_cst_0 : FVec F S_ .f32 := constant S_ .f32 0x7F800000#32
  let main_v5 : FVec F S16x2048x8192 .f32 := broadcastInDim S16x2048x8192 ![] bcast_S_S16x2048x8192 main_cst_0
  let main_v6 : IVec S16x2048x8192 1 := cmpf .olt main_v4 main_v5
  let main_c_1 : IVec S_ 1 := constantI S_ 1 1#1
  let main_v7 : IVec S_ 1 := (fun x v => Host.reduce IntOp.andi x v reducesTo_S16x2048x8192_S_d0_1_2 h_S_) main_v6 main_c_1
  let main_v8 : IVec S_ 1 := andi main_v3 main_v7
  let main_v9 : FVec F S16x4096x2048 .f32 := Host.absf main_arg2
  let main_cst_2 : FVec F S_ .f32 := constant S_ .f32 0x7F800000#32
  let main_v10 : FVec F S16x4096x2048 .f32 := broadcastInDim S16x4096x2048 ![] bcast_S_S16x4096x2048 main_cst_2
  let main_v11 : IVec S16x4096x2048 1 := cmpf .olt main_v9 main_v10
  let main_c_3 : IVec S_ 1 := constantI S_ 1 1#1
  let main_v12 : IVec S_ 1 := (fun x v => Host.reduce IntOp.andi x v reducesTo_S16x4096x2048_S_d0_1_2 h_S_) main_v11 main_c_3
  let main_v13 : IVec S_ 1 := andi main_v8 main_v12
  main_v13
-- ==== Kernel.lean ====
abbrev S16x64x2048 : Shape := ⟨3, ![16, 64, 2048]⟩
abbrev S16x2048x8192 : Shape := ⟨3, ![16, 2048, 8192]⟩
abbrev S16x4096x2048 : Shape := ⟨3, ![16, 4096, 2048]⟩
abbrev S1x64x2048 : Shape := ⟨3, ![1, 64, 2048]⟩
abbrev S1x2048x512 : Shape := ⟨3, ![1, 2048, 512]⟩
abbrev S1x512x2048 : Shape := ⟨3, ![1, 512, 2048]⟩
abbrev S64x2048 : Shape := ⟨2, ![64, 2048]⟩
abbrev S2048x512 : Shape := ⟨2, ![2048, 512]⟩
abbrev S512x2048 : Shape := ⟨2, ![512, 2048]⟩
abbrev S64x512 : Shape := ⟨2, ![64, 512]⟩

abbrev nBuf : Space → Nat
  | .hbm => 4
  | .vmem => 11
  | .smem => 0
  | _ => 0

abbrev bufTy : (tb : Table) → Fin (tcTables nBuf tb) → BufTy
  | .hbm, ⟨0, _⟩ => ⟨S16x64x2048, .f32⟩
  | .hbm, ⟨1, _⟩ => ⟨S16x2048x8192, .f32⟩
  | .hbm, ⟨2, _⟩ => ⟨S16x4096x2048, .f32⟩
  | .hbm, ⟨3, _⟩ => ⟨S16x64x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x64x2048, .f32⟩
  | .local _ .vmem, ⟨9, _⟩ => ⟨S1x64x2048, .f32⟩
  | .local _ .vmem, ⟨10, _⟩ => ⟨S64x2048, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S64x2048_S1x64x2048 : S64x2048.ShapeCasts S1x64x2048
  dot_S64x2048_S2048x512_S64x512_1_0_0_1_n_n_wf : DotDims.WF S64x2048 S2048x512 S64x512 [1] [0] [0] [1] [] []
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S16x64x2048.size a
  hwx0_0 : ∀ i : grid0.Coords, EltTy.bits .f32 = 32 ∨ (Rect.block (s := S16x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x8192.size a
  hwx0_1 : ∀ i : grid0.Coords, EltTy.bits .f32 = 32 ∨ (Rect.block (s := S16x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S16x2048x8192.size a
  hwx0_2 : ∀ i : grid0.Coords, EltTy.bits .f32 = 32 ∨ (Rect.block (s := S16x2048x8192) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x4096x2048.size a
  hwx0_3 : ∀ i : grid0.Coords, EltTy.bits .f32 = 32 ∨ (Rect.block (s := S16x4096x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S16x64x2048.size a
  hwx0_4 : ∀ i : grid0.Coords, EltTy.bits .f32 = 32 ∨ (Rect.block (s := S16x64x2048) S1x64x2048.size (cc0_transform_4 i) (hinb0_4 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x64x2048 : Shape := ⟨3, ![16, 64, 2048]⟩
abbrev S16x2048x8192 : Shape := ⟨3, ![16, 2048, 8192]⟩
abbrev S16x4096x2048 : Shape := ⟨3, ![16, 4096, 2048]⟩
abbrev S16x64x8192 : Shape := ⟨3, ![16, 64, 8192]⟩
abbrev S16x64x4096 : Shape := ⟨3, ![16, 64, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S16x2048x8192, .f32⟩
  | .hbm, ⟨2, _⟩ => ⟨S16x4096x2048, .f32⟩
  | .hbm, ⟨3, _⟩ => ⟨S16x64x8192, .f32⟩
  | .hbm, ⟨4, _⟩ => ⟨S16x64x4096, .f32⟩
  | .hbm, ⟨5, _⟩ => ⟨S16x64x4096, .f32⟩
  | .hbm, ⟨6, _⟩ => ⟨S16x64x4096, .f32⟩
  | .hbm, ⟨7, _⟩ => ⟨S16x64x4096, .f32⟩
  | .hbm, ⟨8, _⟩ => ⟨S_, .f32⟩
  | .hbm, ⟨9, _⟩ => ⟨S16x64x4096, .f32⟩
  | .hbm, ⟨10, _⟩ => ⟨S16x64x4096, .f32⟩
  | .hbm, ⟨11, _⟩ => ⟨S_, .f32⟩
  | .hbm, ⟨12, _⟩ => ⟨S16x64x4096, .f32⟩
  | .hbm, ⟨13, _⟩ => ⟨S16x64x4096, .f32⟩
  | .hbm, ⟨14, _⟩ => ⟨S16x64x4096, .f32⟩
  | .hbm, ⟨15, _⟩ => ⟨S16x64x4096, .f32⟩
  | .hbm, ⟨16, _⟩ => ⟨S16x64x2048, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S16x64x8192_S16x64x4096_0_0_0 : S16x64x8192.Slices ![0, 0, 0] S16x64x4096
  slices_S16x64x8192_S16x64x4096_0_0_4096 : S16x64x8192.Slices ![0, 0, 4096] S16x64x4096
  bcast_S_S16x64x4096 : S_.BroadcastsInDim S16x64x4096 (![] : Fin 0 → Fin S16x64x4096.rank)
  dot_S16x64x2048_S16x2048x8192_S16x64x8192_2_1_1_2_0_0_wf : DotDims.WF S16x64x2048 S16x2048x8192 S16x64x8192 [2] [1] [1] [2] [0] [0]
  dot_S16x64x4096_S16x4096x2048_S16x64x2048_2_1_1_2_0_0_wf : DotDims.WF S16x64x4096 S16x4096x2048 S16x64x2048 [2] [1] [1] [2] [0] [0]

variable [Facts₀]

def dot_S16x64x2048_S16x2048x8192_S16x64x8192_2_1_1_2_0_0 : DotDims S16x64x2048 S16x2048x8192 S16x64x8192 where
  lhsContracting := [2]
  rhsContracting := [1]
  lhsNonContracting := [1]
  rhsNonContracting := [2]
  lhsBatch := [0]
  rhsBatch := [0]
  wf := dot_S16x64x2048_S16x2048x8192_S16x64x8192_2_1_1_2_0_0_wf
def dot_S16x64x4096_S16x4096x2048_S16x64x2048_2_1_1_2_0_0 : DotDims S16x64x4096 S16x4096x2048 S16x64x2048 where
  lhsContracting := [2]
  rhsContracting := [1]
  lhsNonContracting := [1]
  rhsNonContracting := [2]
  lhsBatch := [0]
  rhsBatch := [0]
  wf := dot_S16x64x4096_S16x4096x2048_S16x64x2048_2_1_1_2_0_0_wf

class Facts : Prop extends Facts₀ where

variable [Facts]
-- ==== Proof.K.Stage.lean ====
/-
  The expert kernel's one region, set up. The grid has 16 × 8 points: point t is expert t / 8 and column tile t % 8 of the
  4096 intermediate columns. Five windows: the expert's 64 × 2048 tokens (fetched when the expert changes), the tile's
  2048 × 512 gate columns and 2048 × 512 up columns (two windows on ONE array, the up columns 4096 columns further
  right), the tile's 512 × 2048 rows of the down projection, and the expert's 64 × 2048 result, written back at the
  expert's last tile. A 64 × 2048 scratch carries the running sum from tile to tile: zeroed at tile 0, read out into the
  result's buffer at tile 7.
  Here: the buffers' contents at the region's entry, each window's block at a point, the two branch conditions in closed
  form, where the result window is idle, and the memrefs the body is called with.
-/
import proofs.«111991_j64244120814198_1_alg».proof.Proof.Gen.Kernel.Launch
import proofs.«111991_j64244120814198_1_alg».proof.Proof.Gen.Kernel.Skeleton
import proofs.«111991_j64244120814198_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: @main is the region alone, so they hold the launch memory. -/
abbrev atEntry (c : Dev nD) (b : Ref sig .tc) : Buf (Elt F) ((c : Thread nD τ).loc b) := m ((c : Thread nD τ).loc b)

/-- @main is the region and the return. -/
theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main (fun c => rfl)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The tokens window's current buffer holds its block at every point, fetched there or not (where it is not fetched the block
    index has not moved), for any proof data whose array is the entry contents and whose body leaves the buffer as found. -/
theorem found_tokens {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The gate window's current buffer holds its block at every point, fetched there or not (where it is not fetched the block
    index has not moved), for any proof data whose array is the entry contents and whose body leaves the buffer as found. -/
theorem found_gate {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The up window's current buffer holds its block at every point, fetched there or not (where it is not fetched the block
    index has not moved), for any proof data whose array is the entry contents and whose body leaves the buffer as found. -/
theorem found_up {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The down window's current buffer holds its block at every point, fetched there or not (where it is not fetched the block
    index has not moved), for any proof data whose array is the entry contents and whose body leaves the buffer as found. -/
theorem found_down {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The two branches, decided over the grid -/

/-- "This is the expert's first tile": the body's first `scf.if`, as the kernel computes it from the tile coordinate. -/
abbrev atFirstTile (i : grid0.Coords) : Prop := (Scalar.cmpi .ne (Scalar.extui (Scalar.cmpi .eq (BitVec.ofNat 32 (i 1).val) 0#32)) 0#32) = 1#1
/-- It holds at the points ≡ 0 (mod 8). -/
theorem atFirstTile_iff : ∀ t : Fin cfg0.N, atFirstTile (grid0.coords t) ↔ t.val % 8 = 0 :=
  (by decide +kernel : ∀ t : Fin grid0.N, atFirstTile (grid0.coords t) ↔ t.val % 8 = 0)

/-- "This is the expert's last tile": the body's second `scf.if`. -/
abbrev atLastTile (i : grid0.Coords) : Prop := k0_cond2 i = 1#1
/-- It holds at the points ≡ 7 (mod 8). -/
theorem atLastTile_iff : ∀ t : Fin cfg0.N, atLastTile (grid0.coords t) ↔ t.val % 8 = 7 :=
  (by decide +kernel : ∀ t : Fin grid0.N, atLastTile (grid0.coords t) ↔ t.val % 8 = 7)

/-! ## Where the windows are idle -/

theorem live_tokens : ∀ t : Fin cfg0.N, cfg0.idle 0 (grid0.coords t) = false := by decide +kernel
theorem live_gate : ∀ t : Fin cfg0.N, cfg0.idle 1 (grid0.coords t) = false := by decide +kernel
theorem live_up : ∀ t : Fin cfg0.N, cfg0.idle 2 (grid0.coords t) = false := by decide +kernel
theorem live_down : ∀ t : Fin cfg0.N, cfg0.idle 3 (grid0.coords t) = false := by decide +kernel
/-- Off the last tile the body stores nothing into the result's buffer, -/
theorem idle_result : ∀ t : Fin cfg0.N, ¬atLastTile (grid0.coords t) → cfg0.idle 4 (grid0.coords t) = true := by decide +kernel
/-- and the pipeline does not write it back there; -/
theorem noFlush_result : ∀ t : Fin cfg0.N, ¬atLastTile (grid0.coords t) → (cfg0.win 4).flush t = false := by decide +kernel
/-- at the last tile it is live. -/
theorem live_result : ∀ t : Fin cfg0.N, atLastTile (grid0.coords t) → cfg0.idle 4 (grid0.coords t) = false := by decide +kernel

/-! ## The memrefs the body is called with -/

abbrev tokM (t : Fin cfg0.N) : Memref sig .tc .vmem S1x64x2048 .f32 := win0_0.stage (cfg0.slots t 0)
abbrev tokW (t : Fin cfg0.N) : (tokM t).IsWhole := hstage0_0 ((cfg0.slots t 0).cast nbuf0_0)
abbrev gateM (t : Fin cfg0.N) : Memref sig .tc .vmem S1x2048x512 .f32 := win0_1.stage (cfg0.slots t 1)
abbrev gateW (t : Fin cfg0.N) : (gateM t).IsWhole := hstage0_1 ((cfg0.slots t 1).cast nbuf0_1)
abbrev upM (t : Fin cfg0.N) : Memref sig .tc .vmem S1x2048x512 .f32 := win0_2.stage (cfg0.slots t 2)
abbrev upW (t : Fin cfg0.N) : (upM t).IsWhole := hstage0_2 ((cfg0.slots t 2).cast nbuf0_2)
abbrev downM (t : Fin cfg0.N) : Memref sig .tc .vmem S1x512x2048 .f32 := win0_3.stage (cfg0.slots t 3)
abbrev downW (t : Fin cfg0.N) : (downM t).IsWhole := hstage0_3 ((cfg0.slots t 3).cast nbuf0_3)
abbrev resM (t : Fin cfg0.N) : Memref sig .tc .vmem S1x64x2048 .f32 := win0_4.stage (cfg0.slots t 4)
abbrev resW (t : Fin cfg0.N) : (resM t).IsWhole := hstage0_4 ((cfg0.slots t 4).cast nbuf0_4)
/-- The running sum's scratch buffer, and the view its contents are stated through. -/
abbrev sumM : Memref sig .tc .vmem S64x2048 .f32 := Memref.whole cc0_scratch0
abbrev sumV : View sig .tc .vmem S64x2048 .f32 := sumM.view
/-- One buffer of the result window, through which what the last tile leaves there is stated. -/
abbrev resV : View sig .tc .vmem S1x64x2048 .f32 := (Memref.whole cc0_stg4_0 : Memref sig .tc .vmem S1x64x2048 .f32).view

/-- What the region holds besides the windows: the scratch at some contents, and the generator register. -/
theorem rest_eq (c : Dev nD) :
    (Pipeline.ΦA spec0 c : sProp 𝕄)
      = iprop(iprop((∃ d, owns (c : Thread nD τ) sumM fullShare d)) ∗ (∃ r, prngReg c r)) := by
  unfold Pipeline.ΦA; rw [scopedRest0_eq]; simp only [sumM, owns_whole]; try rfl

end Cert.Kernel.Moe

end
-- ==== Proof.K.RunFirst.lean ====
/-
  The body at an expert's FIRST tile (of eight): the scratch, whatever it held, is zeroed; the tile's partial product
  (tokens · gate columns, tokens · up columns, the gated activation, times the tile's rows of the down projection) is
  added to it; nothing is stored into the result's buffer. The body is run on whole memrefs holding the four input blocks;
  the pieces its two stores leave in the scratch are found by the run.
-/
import proofs.«111991_j64244120814198_1_alg».proof.Proof.K.Stage

set_option maxRecDepth 16384

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first tile's stores leave in the scratch (last first), with the run: from the input buffers at their
    blocks, the result's buffer at contents it hands back untouched and the scratch at anything, the body ends holding
    the inputs as they were and the scratch with those pieces written. -/
noncomputable def runFirst (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : atFirstTile i) (hc1 : ¬atLastTile i)
    (x0 : Vec F S1x64x2048 .f32) (x1 : Vec F S1x2048x512 .f32) (x2 : Vec F S1x2048x512 .f32) (x3 : Vec F S1x512x2048 .f32) :
    { LS : List (View.Piece (Elt F) S64x2048 .f32) //
      ∀ (xi4 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Moe

end
-- ==== Proof.K.RunMid.lean ====
/-
  The body at a tile that is neither an expert's first nor its last: the tile's partial product is added to the running
  sum the tile before left in the scratch; nothing is stored into the result's buffer.
-/
import proofs.«111991_j64244120814198_1_alg».proof.Proof.K.RunFirst

set_option maxRecDepth 16384

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece a middle tile's store leaves in the scratch, with the run: from the input buffers at their blocks, the
    result's buffer at contents it hands back untouched and the scratch at the running sum `acc`. -/
noncomputable def runMid (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : ¬atLastTile i)
    (x0 : Vec F S1x64x2048 .f32) (x1 : Vec F S1x2048x512 .f32) (x2 : Vec F S1x2048x512 .f32) (x3 : Vec F S1x512x2048 .f32) (acc : Vec F S64x2048 .f32) :
    { LS : List (View.Piece (Elt F) S64x2048 .f32) //
      ∀ (xi4 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Moe

end
-- ==== Proof.K.RunLast.lean ====
/-
  The body at an expert's LAST tile: the tile's partial product is added to the running sum, and the sum — now over all
  eight tiles — is stored into the result's buffer, which the pipeline then writes back.
-/
import proofs.«111991_j64244120814198_1_alg».proof.Proof.K.RunMid

set_option maxRecDepth 16384

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the last tile's stores leave in the result's buffer and in the scratch, with the run: from the input
    buffers at their blocks, the result's buffer at anything and the scratch at the running sum `acc`. -/
noncomputable def runLast (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) :
    Σ' (LR : List (View.Piece (Elt F) S1x64x2048 .f32)), { LS : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LR) ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Moe

end
-- ==== Proof.K.Track.lean ====
/-
  What the expert kernel's scratch and result buffer hold after each grid point, and the body's obligation to the
  pipeline. After point t the scratch holds the running sum of the expert's tiles 0 … t % 8: at a first tile what the
  first-tile body leaves (zero plus the tile's partial product), otherwise what the body leaves over the sum the point
  before left. The result's buffer is stored only at a last tile, from the scratch, and is idle elsewhere.
-/
import proofs.«111991_j64244120814198_1_alg».proof.Proof.K.RunLast

set_option maxRecDepth 16384

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first tile's two stores into the scratch cover it. -/
theorem cover_first (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : atFirstTile i) (hc1 : ¬atLastTile i)
    (x0 : Vec F S1x64x2048 .f32) (x1 : Vec F S1x2048x512 .f32) (x2 : Vec F S1x2048x512 .f32) (x3 : Vec F S1x512x2048 .f32) (y : S64x2048.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S64x2048.size (by sl_kernel_rfl) y

/-- What the first tile leaves in the scratch: its pieces read back. -/
def sumFirst (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : atFirstTile i) (hc1 : ¬atLastTile i)
    (x0 : Vec F S1x64x2048 .f32) (x1 : Vec F S1x2048x512 .f32) (x2 : Vec F S1x2048x512 .f32) (x3 : Vec F S1x512x2048 .f32) : Vec F S64x2048 .f32 :=
  sumV.read (Elt F) (sumV.writes (Elt F) sumV.junk (runFirst c i arg2 harg2 arg3 harg3 arg4 harg4 arg5 harg5 arg6 harg6 arg7 harg7 hc0 hc1 x0 x1 x2 x3).1)

/-- A middle tile's store into the scratch covers it. -/
theorem cover_mid (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : ¬atLastTile i)
    (x0 : Vec F S1x64x2048 .f32) (x1 : Vec F S1x2048x512 .f32) (x2 : Vec F S1x2048x512 .f32) (x3 : Vec F S1x512x2048 .f32) (acc : Vec F S64x2048 .f32) (y : S64x2048.Idx) :
    ∃ pc ∈ (runMid c i arg2 harg2 arg3 harg3 arg4 harg4 arg5 harg5 arg6 harg6 arg7 harg7 hc0 hc1 x0 x1 x2 x3 acc).1, y ∈ pc.1.set :=
  View.cover_of_tiledL (runMid c i arg2 harg2 arg3 harg3 arg4 harg4 arg5 harg5 arg6 harg6 arg7 harg7 hc0 hc1 x0 x1 x2 x3 acc).1 S64x2048.size (by sl_kernel_rfl) y

/-- What a middle tile leaves in the scratch, over the running sum `acc`. -/
def sumMid (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : ¬atLastTile i)
    (x0 : Vec F S1x64x2048 .f32) (x1 : Vec F S1x2048x512 .f32) (x2 : Vec F S1x2048x512 .f32) (x3 : Vec F S1x512x2048 .f32) (acc : Vec F S64x2048 .f32) : Vec F S64x2048 .f32 :=
  sumV.read (Elt F) (sumV.writes (Elt F) sumV.junk (runMid c i arg2 harg2 arg3 harg3 arg4 harg4 arg5 harg5 arg6 harg6 arg7 harg7 hc0 hc1 x0 x1 x2 x3 acc).1)

/-- The last tile's store into the scratch covers it, -/
theorem cover_lastSum (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) (y : S64x2048.Idx) :
    ∃ pc ∈ (runLast c i arg2 harg2 arg3 harg3 arg4 harg4 arg5 harg5 arg6 harg6 arg7 harg7 hc0 hc1 x0 x1 x2 x3 acc).2.1, y ∈ pc.1.set :=
  View.cover_of_tiledL (runLast c i arg2 harg2 arg3 harg3 arg4 harg4 arg5 harg5 arg6 harg6 arg7 harg7 hc0 hc1 x0 x1 x2 x3 acc).2.1 S64x2048.size (by sl_kernel_rfl) y

/-- and its store into the result's buffer covers that. -/
theorem cover_lastRes (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) (y : S1x64x2048.Idx) :
    ∃ pc ∈ (runLast c i arg2 harg2 arg3 harg3 arg4 harg4 arg5 harg5 arg6 harg6 arg7 harg7 hc0 hc1 x0 x1 x2 x3 acc).1, y ∈ pc.1.set :=
  View.cover_of_tiledL (runLast c i arg2 harg2 arg3 harg3 arg4 harg4 arg5 harg5 arg6 harg6 arg7 harg7 hc0 hc1 x0 x1 x2 x3 acc).1 S1x64x2048.size (by sl_kernel_rfl) y

/-- What the last tile leaves in the scratch, over the running sum `acc`. -/
def sumLast (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) : Vec F S64x2048 .f32 :=
  sumV.read (Elt F) (sumV.writes (Elt F) sumV.junk (runLast c i arg2 harg2 arg3 harg3 arg4 harg4 arg5 harg5 arg6 harg6 arg7 harg7 hc0 hc1 x0 x1 x2 x3 acc).2.1)

/-- What the last tile leaves in the result's buffer. -/
def resLast (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) : Vec F S1x64x2048 .f32 :=
  resV.read (Elt F) (resV.writes (Elt F) resV.junk (runLast c i arg2 harg2 arg3 harg3 arg4 harg4 arg5 harg5 arg6 harg6 arg7 harg7 hc0 hc1 x0 x1 x2 x3 acc).1)

/-! ## The running sum, point by point -/

/-- The scratch after point `t`: at an expert's first tile what that body leaves; at a later tile what its body leaves
    over the scratch after point `t - 1`. -/
def sumAt (c : Dev nD) (t : Fin cfg0.N) : Vec F S64x2048 .f32 :=
  if h0 : t.val % 8 = 0 then
    sumFirst c (grid0.coords t) (tokM t) (tokW t) (gateM t) (gateW t) (upM t) (upW t) (downM t) (downW t) (resM t) (resW t) sumM (Memref.isWhole_whole _) ((atFirstTile_iff t).mpr h0) (fun h => by have := (atLastTile_iff t).mp h; omega) (blockAt m c 0 t) (blockAt m c 1 t) (blockAt m c 2 t) (blockAt m c 3 t)
  else if h1 : t.val % 8 = 7 then
    sumLast c (grid0.coords t) (tokM t) (tokW t) (gateM t) (gateW t) (upM t) (upW t) (downM t) (downW t) (resM t) (resW t) sumM (Memref.isWhole_whole _) (fun h => h0 ((atFirstTile_iff t).mp h)) ((atLastTile_iff t).mpr h1) (blockAt m c 0 t) (blockAt m c 1 t) (blockAt m c 2 t) (blockAt m c 3 t)
      (sumAt c ⟨t.val - 1, Nat.lt_of_le_of_lt (Nat.sub_le _ _) t.isLt⟩)
  else
    sumMid c (grid0.coords t) (tokM t) (tokW t) (gateM t) (gateW t) (upM t) (upW t) (downM t) (downW t) (resM t) (resW t) sumM (Memref.isWhole_whole _) (fun h => h0 ((atFirstTile_iff t).mp h)) (fun h => h1 ((atLastTile_iff t).mp h)) (blockAt m c 0 t) (blockAt m c 1 t) (blockAt m c 2 t) (blockAt m c 3 t)
      (sumAt c ⟨t.val - 1, Nat.lt_of_le_of_lt (Nat.sub_le _ _) t.isLt⟩)
termination_by t.val
decreasing_by all_goals (simp_wf; omega)

theorem sumAt_first (c : Dev nD) (t : Fin cfg0.N) (h0 : t.val % 8 = 0) (h1 : ¬t.val % 8 = 7) :
    sumAt m c t = sumFirst c (grid0.coords t) (tokM t) (tokW t) (gateM t) (gateW t) (upM t) (upW t) (downM t) (downW t) (resM t) (resW t) sumM (Memref.isWhole_whole _) ((atFirstTile_iff t).mpr h0) (fun h => h1 ((atLastTile_iff t).mp h)) (blockAt m c 0 t) (blockAt m c 1 t) (blockAt m c 2 t) (blockAt m c 3 t) := by
  rw [sumAt, dif_pos h0]

theorem sumAt_mid (c : Dev nD) (t : Fin cfg0.N) (h0 : ¬t.val % 8 = 0) (h1 : ¬t.val % 8 = 7) :
    sumAt m c t = sumMid c (grid0.coords t) (tokM t) (tokW t) (gateM t) (gateW t) (upM t) (upW t) (downM t) (downW t) (resM t) (resW t) sumM (Memref.isWhole_whole _) (fun h => h0 ((atFirstTile_iff t).mp h)) (fun h => h1 ((atLastTile_iff t).mp h)) (blockAt m c 0 t) (blockAt m c 1 t) (blockAt m c 2 t) (blockAt m c 3 t)
      (sumAt m c ⟨t.val - 1, Nat.lt_of_le_of_lt (Nat.sub_le _ _) t.isLt⟩) := by
  rw [sumAt, dif_neg h0, dif_neg h1]

theorem sumAt_last (c : Dev nD) (t : Fin cfg0.N) (h0 : ¬t.val % 8 = 0) (h1 : t.val % 8 = 7) :
    sumAt m c t = sumLast c (grid0.coords t) (tokM t) (tokW t) (gateM t) (gateW t) (upM t) (upW t) (downM t) (downW t) (resM t) (resW t) sumM (Memref.isWhole_whole _) (fun h => h0 ((atFirstTile_iff t).mp h)) ((atLastTile_iff t).mpr h1) (blockAt m c 0 t) (blockAt m c 1 t) (blockAt m c 2 t) (blockAt m c 3 t)
      (sumAt m c ⟨t.val - 1, Nat.lt_of_le_of_lt (Nat.sub_le _ _) t.isLt⟩) := by
  rw [sumAt, dif_neg h0, dif_pos h1]

/-- The result's buffer after point `t`: at a last tile what that body stores there; elsewhere nothing is stored (the
    window is idle there and this value is not consulted). -/
def resAt (c : Dev nD) (t : Fin cfg0.N) : Vec F S1x64x2048 .f32 :=
  if h1 : t.val % 8 = 7 then
    resLast c (grid0.coords t) (tokM t) (tokW t) (gateM t) (gateW t) (upM t) (upW t) (downM t) (downW t) (resM t) (resW t) sumM (Memref.isWhole_whole _) (fun h => by have := (atFirstTile_iff t).mp h; omega) ((atLastTile_iff t).mpr h1) (blockAt m c 0 t) (blockAt m c 1 t) (blockAt m c 2 t) (blockAt m c 3 t)
      (sumAt m c ⟨t.val - 1, Nat.lt_of_le_of_lt (Nat.sub_le _ _) t.isLt⟩)
  else resV.read (Elt F) resV.junk

theorem resAt_last (c : Dev nD) (t : Fin cfg0.N) (h0 : ¬t.val % 8 = 0) (h1 : t.val % 8 = 7) :
    resAt m c t = resLast c (grid0.coords t) (tokM t) (tokW t) (gateM t) (gateW t) (upM t) (upW t) (downM t) (downW t) (resM t) (resW t) sumM (Memref.isWhole_whole _) (fun h => h0 ((atFirstTile_iff t).mp h)) ((atLastTile_iff t).mpr h1) (blockAt m c 0 t) (blockAt m c 1 t) (blockAt m c 2 t) (blockAt m c 3 t)
      (sumAt m c ⟨t.val - 1, Nat.lt_of_le_of_lt (Nat.sub_le _ _) t.isLt⟩) := by
  unfold resAt; rw [dif_pos h1]

/-! ## The region's invariant -/

/-- Before position `n`: before the first point the scratch holds anything; afterwards the running sum the point before
    left. The generator register is carried along untouched. -/
def keeps (c : Dev nD) : (n : ℕ) → n ≤ cfg0.N → sProp 𝕄
  | 0, _ => Pipeline.ΦA spec0 c
  | n + 1, hn => iprop(iprop(owns (c : Thread nD τ) sumM fullShare (sumAt m c ⟨n, hn⟩)) ∗ (∃ r, prngReg c r))

theorem keeps_zero (c : Dev nD) (n : ℕ) (h : n ≤ cfg0.N) (hz : n = 0) : keeps m c n h = Pipeline.ΦA spec0 c := by
  subst hz; rfl

theorem keeps_succ (c : Dev nD) (t : Fin cfg0.N) :
    keeps m c (t.val + 1) t.isLt = iprop(iprop(owns (c : Thread nD τ) sumM fullShare (sumAt m c t)) ∗ (∃ r, prngReg c r)) := rfl

theorem keeps_pos (c : Dev nD) (n : ℕ) (h : n ≤ cfg0.N) (hz : n ≠ 0) :
    keeps m c n h = iprop(iprop(owns (c : Thread nD τ) sumM fullShare (sumAt m c ⟨n - 1, by omega⟩)) ∗ (∃ r, prngReg c r)) := by
  cases n with
  | zero => exact absurd rfl hz
  | succ n => rfl

/-! ## The proof data -/

/-- The pipeline's proof data on core `c`. The arrays are the entry contents; after the body each input's buffer holds
    its block and the result's buffer `resAt`; the invariant tracks the running sum. The gate and the up windows read ONE
    array: each holds half of its share, every other input its whole array. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => resAt m c t
  Φ t := keeps m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = atEntry m c (Pipeline.arrRef spec0 w) := by
  dsimp only [dats]

theorem keeps_castSucc (c : Dev nD) (t : Fin cfg0.N) :
    (dats m 0 c).Φ t.castSucc = keeps m c t.val (Nat.le_of_lt t.isLt) := by
  dsimp only [dats]; simp only [Fin.coe_castSucc]

theorem after_tokens (c : Dev nD) (t : Fin cfg0.N) : (dats m 0 c).after 0 t = blockAt m c 0 t := by dsimp only [dats]
theorem after_gate (c : Dev nD) (t : Fin cfg0.N) : (dats m 0 c).after 1 t = blockAt m c 1 t := by dsimp only [dats]
theorem after_up (c : Dev nD) (t : Fin cfg0.N) : (dats m 0 c).after 2 t = blockAt m c 2 t := by dsimp only [dats]
theorem after_down (c : Dev nD) (t : Fin cfg0.N) : (dats m 0 c).after 3 t = blockAt m c 3 t := by dsimp only [dats]
theorem after_result (c : Dev nD) (t : Fin cfg0.N) : (dats m 0 c).after 4 t = resAt m c t := by dsimp only [dats]

theorem before_tokens (c : Dev nD) (t : Fin cfg0.N) (d) : (dats m 0 c).before 0 t d = blockAt m c 0 t :=
  found_tokens m (dats m 0 c) (A_eq m c 0) (after_tokens m c) t d
theorem before_gate (c : Dev nD) (t : Fin cfg0.N) (d) : (dats m 0 c).before 1 t d = blockAt m c 1 t :=
  found_gate m (dats m 0 c) (A_eq m c 1) (after_gate m c) t d
theorem before_up (c : Dev nD) (t : Fin cfg0.N) (d) : (dats m 0 c).before 2 t d = blockAt m c 2 t :=
  found_up m (dats m 0 c) (A_eq m c 2) (after_up m c) t d
theorem before_down (c : Dev nD) (t : Fin cfg0.N) (d) : (dats m 0 c).before 3 t d = blockAt m c 3 t :=
  found_down m (dats m 0 c) (A_eq m c 3) (after_down m c) t d

/-- An input's buffer is left at its block. -/
theorem leaves_tokens (c : Dev nD) (t : Fin cfg0.N) : (dats m 0 c).leavesExact 0 t = owns (c : Thread nD τ) (tokM t) fullShare (blockAt m c 0 t) := by
  unfold Dat.leavesExact; rw [live_tokens t, after_tokens]
theorem leaves_gate (c : Dev nD) (t : Fin cfg0.N) : (dats m 0 c).leavesExact 1 t = owns (c : Thread nD τ) (gateM t) fullShare (blockAt m c 1 t) := by
  unfold Dat.leavesExact; rw [live_gate t, after_gate]
theorem leaves_up (c : Dev nD) (t : Fin cfg0.N) : (dats m 0 c).leavesExact 2 t = owns (c : Thread nD τ) (upM t) fullShare (blockAt m c 2 t) := by
  unfold Dat.leavesExact; rw [live_up t, after_up]
theorem leaves_down (c : Dev nD) (t : Fin cfg0.N) : (dats m 0 c).leavesExact 3 t = owns (c : Thread nD τ) (downM t) fullShare (blockAt m c 3 t) := by
  unfold Dat.leavesExact; rw [live_down t, after_down]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (tokM t) fullShare ((dats m 0 c).before 0 t d))
    ∗ (∃ d, owns (c : Thread nD τ) (gateM t) fullShare ((dats m 0 c).before 1 t d))
    ∗ (∃ d, owns (c : Thread nD τ) (upM t) fullShare ((dats m 0 c).before 2 t d))
    ∗ (∃ d, owns (c : Thread nD τ) (downM t) fullShare ((dats m 0 c).before 3 t d))
    ∗ (∃ d, owns (c : Thread nD τ) (resM t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position in its expert decides the case;
    the invariant hands the body the scratch (at anything before the very first point, else at the running sum) and takes
    it back at this point's sum; the result's buffer is handed back untouched off the last tile and stored at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tokens, before_gate, before_up, before_down]
  rw [show (dats m 0 c).owesAt () t.succ = (dats m 0 c).owesAt () t.castSucc from rfl]
  rw [show (dats m 0 c).Φ t.succ = keeps m c (t.val + 1) t.isLt from rfl, keeps_succ]
  rw [leaves_tokens, leaves_gate, leaves_up, leaves_down]
  have hN : t.val < 128 := lt_of_lt_of_eq t.isLt (show cfg0.N = 128 from N_0)
  by_cases h0 : t.val % 8 = 0
  · have h1 : ¬t.val % 8 = 7 := by omega
    have hf : atFirstTile (grid0.coords t) := (atFirstTile_iff t).mpr h0
    have hnl : ¬atLastTile (grid0.coords t) := fun h => h1 ((atLastTile_iff t).mp h)
    rw [Dat.leavesExact_idle (dats m 0 c) 4 t (idle_result t hnl) (noFlush_result t hnl)]
    rw [sumAt_first m c t h0 h1]
    unfold sumFirst; (try dsimp only)
    by_cases hz : t.val = 0
    · rw [keeps_castSucc m c t, keeps_zero m c _ _ hz, rest_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hf hnl (blockAt m c 0 t) (blockAt m c 1 t) (blockAt m c 2 t) (blockAt m c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [keeps_castSucc m c t, keeps_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hf hnl (blockAt m c 0 t) (blockAt m c 1 t) (blockAt m c 2 t) (blockAt m c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hnf : ¬atFirstTile (grid0.coords t) := fun h => h0 ((atFirstTile_iff t).mp h)
    by_cases h1 : t.val % 8 = 7
    · have hl : atLastTile (grid0.coords t) := (atLastTile_iff t).mpr h1
      rw [show (dats m 0 c).leavesExact 4 t = owns (c : Thread nD τ) (resM t) fullShare ((dats m 0 c).after 4 t) from by
        unfold Dat.leavesExact; rw [live_result t hl], after_result]
      rw [sumAt_last m c t h0 h1, resAt_last m c t h0 h1]
      unfold sumLast resLast; (try dsimp only)
      rw [keeps_castSucc m c t, keeps_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hnf hl (blockAt m c 0 t) (blockAt m c 1 t) (blockAt m c 2 t) (blockAt m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (cover_lastSum c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_lastRes c _ _ _ _ _ _ _ _ _ _ _ _ _ _ _ _ _ _ _ _)
    · have hnl : ¬atLastTile (grid0.coords t) := fun h => h1 ((atLastTile_iff t).mp h)
      rw [Dat.leavesExact_idle (dats m 0 c) 4 t (idle_result t hnl) (noFlush_result t hnl)]
      rw [sumAt_mid m c t h0 h1]
      unfold sumMid; (try dsimp only)
      rw [keeps_castSucc m c t, keeps_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hnf hnl (blockAt m c 0 t) (blockAt m c 1 t) (blockAt m c 2 t) (blockAt m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem keeps_in (c : Dev nD) : Pipeline.ΦA spec0 c ⊢ (dats m 0 c).Φ 0 := by
  rw [show (dats m 0 c).Φ 0 = keeps m c 0 (Nat.zero_le _) from rfl, keeps_zero m c 0 _ rfl]
  try exact Idealize.SL.BI.Entails.refl _

/-- and after the last point the invariant gives it back, the running sum forgotten. -/
theorem keeps_out (c : Dev nD) : (dats m 0 c).Φ (Fin.last cfg0.N) ⊢ Pipeline.ΦA spec0 c := by
  rw [show (dats m 0 c).Φ (Fin.last cfg0.N) = keeps m c (Fin.last cfg0.N).val (Nat.le_of_lt_succ (Fin.last cfg0.N).isLt) from rfl,
    keeps_pos m c _ _ (by rw [Fin.val_last]; have : cfg0.N = 128 := N_0; omega), rest_eq]
  iintro ⟨HS, Hg⟩
  isplitl [HS]
  · iexists _; iexact HS
  iexact Hg

end Cert.Kernel.Moe

end
-- ==== Proof.LibFrameShared.lean ====
/-
  The frame run with a tracking invariant for a pipeline whose windows may share arrays: the windows' arrays need not be
  pairwise distinct, and how the buffers behind the arrays make the proof data's arrays at entry is a hypothesis.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

/-- The frame run with a tracking invariant, for a pipeline with no prefetched table whose windows may share arrays:
    the layout facts are given one by one, the arrays need not be pairwise distinct, and the entry split of the
    buffers behind the arrays into the proof data's arrays is the hypothesis `hsplit`. The class invariant yields the
    data's invariant before point 0 and is yielded back after the last point; the conclusion is `FramePost`. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end FrameShared

end Pipeline

end Idealize.ShloMosaic
-- ==== Proof.LibShareSplit.lean ====
/-
  The entry split of the buffers behind a pipeline's arrays when exactly two input windows sit on one array: that
  array's full share is divided between the two windows, every other array is held whole by its one window.
-/
import Idealize.ShloMosaic.Lib.Pipeline.Launch

noncomputable section

namespace Idealize.ShloMosaic

open Idealize.SL
open Idealize.SL.BI (sProp bigSep bigSep_congr bigSep_erase bigSep_univ_split)
open scoped Idealize.SL.BI
open Idealize.SL.BI.BIBase Idealize.SL.BI.Laws Idealize.SL.Sem Idealize.SL.ProofMode
open Idealize.SL.RA
open PCS
open TcCoe

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

namespace Pipeline

variable {Λ₀ : SL.Sem.Labels}

/-- A points-to at a buffer and the contents `V` assigns it, carried along an equality of buffers. -/
theorem pointsTo_ref_congr {c : Dev nD} (V : (b : Ref sig .tc) → Buf Val ((c.tc : Thread nD τ).loc b))
    (q : PosShare TreeShare) {b b' : Ref sig .tc} (h : b = b') :
    ((((c.tc : Thread nD τ).loc b) ↦{q} V b : sProp 𝕄)) = (((c.tc : Thread nD τ).loc b') ↦{q} V b') := by
  subst h; rfl

/-- The entry split for a pipeline in which exactly the two windows `w₀ ≠ w₁` sit on one array (`href`) and the windows
    other than `w₀` sit on pairwise distinct arrays (`hinj`): the buffers behind the arrays, each whole at the full share at
    the contents `V`, make the proof data's arrays at the contents `F = V ∘ arrRef`, provided the full share is the
    composite of the shares of `w₀` and `w₁` (`hq`) and every other window holds the full share (`hfull`). -/
theorem arrays_split_pair {cfg : Cfg sig Λ₀} {c : Dev nD} (dat : Dat τ Val Ix Name U Lvl cfg c)
    (w₀ w₁ : Fin cfg.W) (hne : w₀ ≠ w₁)
    (href : arrRef cfg.spec w₀ = arrRef cfg.spec w₁)
    (hinj : ∀ w w' : Fin cfg.W, w ≠ w₀ → w' ≠ w₀ → arrRef cfg.spec w = arrRef cfg.spec w' → w = w')
    (harr : ∀ w, (cfg.spec w).arr.IsWhole)
    (hq : fullShare ∈ dat.share w₀ ·? dat.share w₁)
    (hfull : ∀ w, w ≠ w₀ → w ≠ w₁ → dat.share w = fullShare)
    (V : (b : Ref sig .tc) → Buf Val ((c.tc : Thread nD τ).loc b))
    (F : (w : Fin cfg.W) → Buf Val ((cfg.spec w).arr.view.loc (c.tc : Thread nD τ)))
    (hF : ∀ w, F w = V (arrRef cfg.spec w)) :
    (arrBufs cfg.spec c V : sProp 𝕄) ⊢ dat.arrays F := by
  classical
  -- the proof data's arrays, window by window, each a whole buffer at the contents `V` gives it
  have hΦ : dat.arrays F = bigSep Finset.univ fun w : Fin cfg.W =>
      (((c.tc : Thread nD τ).loc (arrRef cfg.spec w)) ↦{dat.share w} V (arrRef cfg.spec w) : sProp 𝕄) := by
    unfold Dat.arrays
    exact bigSep_congr fun w _ => by rw [(harr w).set_eq_univ, hF]
  -- the arrays are those of the windows other than `w₀`, pairwise distinct
  have himg : Finset.univ.image (arrRef cfg.spec) = (Finset.univ.erase w₀).image (arrRef cfg.spec) := by
    ext b
    constructor
    · intro hb
      obtain ⟨w, -, rfl⟩ := Finset.mem_image.mp hb
      by_cases h : w = w₀
      · exact Finset.mem_image.mpr ⟨w₁, Finset.mem_erase.mpr ⟨hne.symm, Finset.mem_univ _⟩, by rw [h, href]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  have hon : Set.InjOn (arrRef cfg.spec) (Finset.univ.erase w₀ : Finset (Fin cfg.W)) := fun w hw w' hw' e =>
    hinj w w' (Finset.ne_of_mem_erase (Finset.mem_coe.mp hw)) (Finset.ne_of_mem_erase (Finset.mem_coe.mp hw')) e
  have hw₁ : w₁ ∈ Finset.univ.erase w₀ := Finset.mem_erase.mpr ⟨hne.symm, Finset.mem_univ _⟩
  have hL : (arrBufs cfg.spec c V : sProp 𝕄)
      = iprop((((c.tc : Thread nD τ).loc (arrRef cfg.spec w₁)) ↦{fullShare} V (arrRef cfg.spec w₁))
          ∗ bigSep ((Finset.univ.erase w₀).erase w₁) fun w : Fin cfg.W =>
              (((c.tc : Thread nD τ).loc (arrRef cfg.spec w)) ↦{fullShare} V (arrRef cfg.spec w) : sProp 𝕄)) := by
    unfold arrBufs
    rw [himg, BI.bigSep_image_of_injOn hon, bigSep_erase hw₁]
    rfl
  have hR : (bigSep Finset.univ fun w : Fin cfg.W =>
        (((c.tc : Thread nD τ).loc (arrRef cfg.spec w)) ↦{dat.share w} V (arrRef cfg.spec w) : sProp 𝕄))
      = iprop((((c.tc : Thread nD τ).loc (arrRef cfg.spec w₀)) ↦{dat.share w₀} V (arrRef cfg.spec w₀))
          ∗ (((c.tc : Thread nD τ).loc (arrRef cfg.spec w₁)) ↦{dat.share w₁} V (arrRef cfg.spec w₁))
          ∗ bigSep ((Finset.univ.erase w₀).erase w₁) fun w : Fin cfg.W =>
              (((c.tc : Thread nD τ).loc (arrRef cfg.spec w)) ↦{dat.share w} V (arrRef cfg.spec w) : sProp 𝕄)) := by
    rw [bigSep_univ_split w₀, bigSep_erase hw₁]
    rfl
  have hrest : (bigSep ((Finset.univ.erase w₀).erase w₁) fun w : Fin cfg.W =>
        (((c.tc : Thread nD τ).loc (arrRef cfg.spec w)) ↦{fullShare} V (arrRef cfg.spec w) : sProp 𝕄))
      = bigSep ((Finset.univ.erase w₀).erase w₁) fun w : Fin cfg.W =>
        (((c.tc : Thread nD τ).loc (arrRef cfg.spec w)) ↦{dat.share w} V (arrRef cfg.spec w) : sProp 𝕄) :=
    bigSep_congr fun w hw => by
      rw [hfull w (Finset.ne_of_mem_erase (Finset.mem_of_mem_erase hw)) (Finset.ne_of_mem_erase hw)]
  rw [hΦ, hL, hR, hrest, pointsTo_ref_congr V (dat.share w₀) href]
  iintro ⟨H, HR⟩
  ihave H2 := (pointsTo_share hq).1 $$ H
  icases H2 with ⟨H0, H1⟩
  isplitl [H0]; · iexact H0
  isplitl [H1]; · iexact H1
  iexact HR

/-- `arrays_split_pair` with the shared array's two windows inputs holding the two halves of the full share
    (`dat.q w₀ = fullShare.left`, `dat.q w₁ = fullShare.right`), every other input window holding the full share. -/
theorem arrays_split_pair_halves {cfg : Cfg sig Λ₀} {c : Dev nD} (dat : Dat τ Val Ix Name U Lvl cfg c)
    (w₀ w₁ : Fin cfg.W) (hne : w₀ ≠ w₁)
    (href : arrRef cfg.spec w₀ = arrRef cfg.spec w₁)
    (hinj : ∀ w w' : Fin cfg.W, w ≠ w₀ → w' ≠ w₀ → arrRef cfg.spec w = arrRef cfg.spec w' → w = w')
    (harr : ∀ w, (cfg.spec w).arr.IsWhole)
    (hin₀ : (cfg.win w₀).isOut = false) (hin₁ : (cfg.win w₁).isOut = false)
    (hq₀ : dat.q w₀ = fullShare.left) (hq₁ : dat.q w₁ = fullShare.right)
    (hqfull : ∀ w, w ≠ w₀ → w ≠ w₁ → (cfg.win w).isOut = false → dat.q w = fullShare)
    (V : (b : Ref sig .tc) → Buf Val ((c.tc : Thread nD τ).loc b))
    (F : (w : Fin cfg.W) → Buf Val ((cfg.spec w).arr.view.loc (c.tc : Thread nD τ)))
    (hF : ∀ w, F w = V (arrRef cfg.spec w)) :
    (arrBufs cfg.spec c V : sProp 𝕄) ⊢ dat.arrays F := by
  refine arrays_split_pair dat w₀ w₁ hne href hinj harr ?_ ?_ V F hF
  · unfold Dat.share
    rw [hin₀, hin₁, hq₀, hq₁]
    exact PosShare.mem_left_op_right fullShare
  · intro w h0 h1
    unfold Dat.share
    cases h : (cfg.win w).isOut
    · rw [if_neg (by simp), hqfull w h0 h1 h]
    · rw [if_pos rfl]

end Pipeline

end Idealize.ShloMosaic
-- ==== Proof.K.Launch.lean ====
/-
  The expert kernel's run and frame. The gate and the up windows read one array, so at the region's entry that array's
  share is halved between them; every other array goes whole to its one window. From there the pipeline's rule with the
  body's obligation gives the run: every weakly fair execution ends, each array at what the write-backs leave. The three
  argument arrays are inputs, never written: they end as they began.
-/
import proofs.«111991_j64244120814198_1_alg».proof.Proof.K.Track
import proofs.«111991_j64244120814198_1_alg».proof.Proof.LibFrameShared
import proofs.«111991_j64244120814198_1_alg».proof.Proof.LibShareSplit

set_option maxRecDepth 16384

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The entry split: the four buffers behind the five windows, each whole, make the windows' arrays — the weights' array
    split in two halves between the gate window and the up window. -/
theorem entry_split (c : Dev nD) :
    (Pipeline.arrBufs (cfgs 0).spec c (atEntry m c) : sProp 𝕄) ⊢ (dats m 0 c).arrays ((dats m 0 c).arrAt · 0) :=
  Pipeline.arrays_split_pair_halves (dats m 0 c) 1 2 (by decide) rfl (by decide) arr_whole0 rfl rfl rfl rfl
    (fun w h1 h2 _ => by fin_cases w <;> first | rfl | exact absurd rfl h1 | exact absurd rfl h2)
    (atEntry m c) _ (fun w => A_eq m c w)

set_option backward.isDefEq.respectTransparency.types false in
/-- From any memory with zero counters, every weakly fair execution of @main ends, every array of the pipeline at what
    the write-backs leave in it. -/
theorem run_main : θ_run defs (onTc (τ := τ) (main (F := F))) (s₀ m ρ) (Pipeline.FramePost cfgs (dats m) 0 (atEntry m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := atEntry m)
    (hmain := main_is_region m Variants.none) (hsplit := entry_split m) (hin := keeps_in m) (hout := keeps_out m)

/-- The frame: the run ends, and the three argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3))⟩) (run_main m ρ)

end Cert.Kernel.Moe

end
-- ==== Proof.KI.Stage.lean ====
/-
  The expert kernel's one region, set up. The grid has 16 × 8 points: point t is expert t / 8 and column tile t % 8 of the
  4096 intermediate columns. Five windows: the expert's 64 × 2048 tokens (fetched when the expert changes), the tile's
  2048 × 512 gate columns and 2048 × 512 up columns (two windows on ONE array, the up columns 4096 columns further
  right), the tile's 512 × 2048 rows of the down projection, and the expert's 64 × 2048 result, written back at the
  expert's last tile. A 64 × 2048 scratch carries the running sum from tile to tile: zeroed at tile 0, read out into the
  result's buffer at tile 7.
  Here: the buffers' contents at the region's entry, each window's block at a point, the two branch conditions in closed
  form, where the result window is idle, and the memrefs the body is called with.
-/
import proofs.«111991_j64244120814198_1_alg».proof.Proof.Gen.KernelIdeal.Launch
import proofs.«111991_j64244120814198_1_alg».proof.Proof.Gen.KernelIdeal.Skeleton
import proofs.«111991_j64244120814198_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: @main is the region alone, so they hold the launch memory. -/
abbrev atEntry (c : Dev nD) (b : Ref sig .tc) : Buf (Elt F) ((c : Thread nD τ).loc b) := m ((c : Thread nD τ).loc b)

/-- @main is the region and the return. -/
theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main (fun c => rfl)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The tokens window's current buffer holds its block at every point, fetched there or not (where it is not fetched the block
    index has not moved), for any proof data whose array is the entry contents and whose body leaves the buffer as found. -/
theorem found_tokens {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The gate window's current buffer holds its block at every point, fetched there or not (where it is not fetched the block
    index has not moved), for any proof data whose array is the entry contents and whose body leaves the buffer as found. -/
theorem found_gate {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The up window's current buffer holds its block at every point, fetched there or not (where it is not fetched the block
    index has not moved), for any proof data whose array is the entry contents and whose body leaves the buffer as found. -/
theorem found_up {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The down window's current buffer holds its block at every point, fetched there or not (where it is not fetched the block
    index has not moved), for any proof data whose array is the entry contents and whose body leaves the buffer as found. -/
theorem found_down {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The two branches, decided over the grid -/

/-- "This is the expert's first tile": the body's first `scf.if`, as the kernel computes it from the tile coordinate. -/
abbrev atFirstTile (i : grid0.Coords) : Prop := (Scalar.cmpi .ne (Scalar.extui (Scalar.cmpi .eq (BitVec.ofNat 32 (i 1).val) 0#32)) 0#32) = 1#1
/-- It holds at the points ≡ 0 (mod 8). -/
theorem atFirstTile_iff : ∀ t : Fin cfg0.N, atFirstTile (grid0.coords t) ↔ t.val % 8 = 0 :=
  (by decide +kernel : ∀ t : Fin grid0.N, atFirstTile (grid0.coords t) ↔ t.val % 8 = 0)

/-- "This is the expert's last tile": the body's second `scf.if`. -/
abbrev atLastTile (i : grid0.Coords) : Prop := k0_cond2 i = 1#1
/-- It holds at the points ≡ 7 (mod 8). -/
theorem atLastTile_iff : ∀ t : Fin cfg0.N, atLastTile (grid0.coords t) ↔ t.val % 8 = 7 :=
  (by decide +kernel : ∀ t : Fin grid0.N, atLastTile (grid0.coords t) ↔ t.val % 8 = 7)

/-! ## Where the windows are idle -/

theorem live_tokens : ∀ t : Fin cfg0.N, cfg0.idle 0 (grid0.coords t) = false := by decide +kernel
theorem live_gate : ∀ t : Fin cfg0.N, cfg0.idle 1 (grid0.coords t) = false := by decide +kernel
theorem live_up : ∀ t : Fin cfg0.N, cfg0.idle 2 (grid0.coords t) = false := by decide +kernel
theorem live_down : ∀ t : Fin cfg0.N, cfg0.idle 3 (grid0.coords t) = false := by decide +kernel
/-- Off the last tile the body stores nothing into the result's buffer, -/
theorem idle_result : ∀ t : Fin cfg0.N, ¬atLastTile (grid0.coords t) → cfg0.idle 4 (grid0.coords t) = true := by decide +kernel
/-- and the pipeline does not write it back there; -/
theorem noFlush_result : ∀ t : Fin cfg0.N, ¬atLastTile (grid0.coords t) → (cfg0.win 4).flush t = false := by decide +kernel
/-- at the last tile it is live. -/
theorem live_result : ∀ t : Fin cfg0.N, atLastTile (grid0.coords t) → cfg0.idle 4 (grid0.coords t) = false := by decide +kernel

/-! ## The memrefs the body is called with -/

abbrev tokM (t : Fin cfg0.N) : Memref sig .tc .vmem S1x64x2048 .f32 := win0_0.stage (cfg0.slots t 0)
abbrev tokW (t : Fin cfg0.N) : (tokM t).IsWhole := hstage0_0 ((cfg0.slots t 0).cast nbuf0_0)
abbrev gateM (t : Fin cfg0.N) : Memref sig .tc .vmem S1x2048x512 .f32 := win0_1.stage (cfg0.slots t 1)
abbrev gateW (t : Fin cfg0.N) : (gateM t).IsWhole := hstage0_1 ((cfg0.slots t 1).cast nbuf0_1)
abbrev upM (t : Fin cfg0.N) : Memref sig .tc .vmem S1x2048x512 .f32 := win0_2.stage (cfg0.slots t 2)
abbrev upW (t : Fin cfg0.N) : (upM t).IsWhole := hstage0_2 ((cfg0.slots t 2).cast nbuf0_2)
abbrev downM (t : Fin cfg0.N) : Memref sig .tc .vmem S1x512x2048 .f32 := win0_3.stage (cfg0.slots t 3)
abbrev downW (t : Fin cfg0.N) : (downM t).IsWhole := hstage0_3 ((cfg0.slots t 3).cast nbuf0_3)
abbrev resM (t : Fin cfg0.N) : Memref sig .tc .vmem S1x64x2048 .f32 := win0_4.stage (cfg0.slots t 4)
abbrev resW (t : Fin cfg0.N) : (resM t).IsWhole := hstage0_4 ((cfg0.slots t 4).cast nbuf0_4)
/-- The running sum's scratch buffer, and the view its contents are stated through. -/
abbrev sumM : Memref sig .tc .vmem S64x2048 .f32 := Memref.whole cc0_scratch0
abbrev sumV : View sig .tc .vmem S64x2048 .f32 := sumM.view
/-- One buffer of the result window, through which what the last tile leaves there is stated. -/
abbrev resV : View sig .tc .vmem S1x64x2048 .f32 := (Memref.whole cc0_stg4_0 : Memref sig .tc .vmem S1x64x2048 .f32).view

/-- What the region holds besides the windows: the scratch at some contents, and the generator register. -/
theorem rest_eq (c : Dev nD) :
    (Pipeline.ΦA spec0 c : sProp 𝕄)
      = iprop(iprop((∃ d, owns (c : Thread nD τ) sumM fullShare d)) ∗ (∃ r, prngReg c r)) := by
  unfold Pipeline.ΦA; rw [scopedRest0_eq]; simp only [sumM, owns_whole]; try rfl

end Cert.KernelIdeal.Moe

end
-- ==== Proof.KI.RunFirst.lean ====
/-
  The body at an expert's FIRST tile (of eight): the scratch, whatever it held, is zeroed; the tile's partial product
  (tokens · gate columns, tokens · up columns, the gated activation, times the tile's rows of the down projection) is
  added to it; nothing is stored into the result's buffer. The body is run on whole memrefs holding the four input blocks;
  the pieces its two stores leave in the scratch are found by the run.
-/
import proofs.«111991_j64244120814198_1_alg».proof.Proof.KI.Stage

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first tile's stores leave in the scratch (last first), with the run: from the input buffers at their
    blocks, the result's buffer at contents it hands back untouched and the scratch at anything, the body ends holding
    the inputs as they were and the scratch with those pieces written. -/
noncomputable def runFirst (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : atFirstTile i) (hc1 : ¬atLastTile i)
    (x0 : Vec F S1x64x2048 .f32) (x1 : Vec F S1x2048x512 .f32) (x2 : Vec F S1x2048x512 .f32) (x3 : Vec F S1x512x2048 .f32) :
    { LS : List (View.Piece (Elt F) S64x2048 .f32) //
      ∀ (xi4 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Moe

end
-- ==== Proof.KI.RunMid.lean ====
/-
  The body at a tile that is neither an expert's first nor its last: the tile's partial product is added to the running
  sum the tile before left in the scratch; nothing is stored into the result's buffer.
-/
import proofs.«111991_j64244120814198_1_alg».proof.Proof.KI.RunFirst

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece a middle tile's store leaves in the scratch, with the run: from the input buffers at their blocks, the
    result's buffer at contents it hands back untouched and the scratch at the running sum `acc`. -/
noncomputable def runMid (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : ¬atLastTile i)
    (x0 : Vec F S1x64x2048 .f32) (x1 : Vec F S1x2048x512 .f32) (x2 : Vec F S1x2048x512 .f32) (x3 : Vec F S1x512x2048 .f32) (acc : Vec F S64x2048 .f32) :
    { LS : List (View.Piece (Elt F) S64x2048 .f32) //
      ∀ (xi4 : Vec F S1x64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Moe

end
-- ==== Proof.KI.RunLast.lean ====
/-
  The body at an expert's LAST tile: the tile's partial product is added to the running sum, and the sum — now over all
  eight tiles — is stored into the result's buffer, which the pipeline then writes back.
-/
import proofs.«111991_j64244120814198_1_alg».proof.Proof.KI.RunMid

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the last tile's stores leave in the result's buffer and in the scratch, with the run: from the input
    buffers at their blocks, the result's buffer at anything and the scratch at the running sum `acc`. -/
noncomputable def runLast (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) :
    Σ' (LR : List (View.Piece (Elt F) S1x64x2048 .f32)), { LS : List (View.Piece (Elt F) S64x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LR) ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Moe

end
-- ==== Proof.KI.Track.lean ====
/-
  What the expert kernel's scratch and result buffer hold after each grid point, and the body's obligation to the
  pipeline. After point t the scratch holds the running sum of the expert's tiles 0 … t % 8: at a first tile what the
  first-tile body leaves (zero plus the tile's partial product), otherwise what the body leaves over the sum the point
  before left. The result's buffer is stored only at a last tile, from the scratch, and is idle elsewhere.
-/
import proofs.«111991_j64244120814198_1_alg».proof.Proof.KI.RunLast

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first tile's two stores into the scratch cover it. -/
theorem cover_first (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : atFirstTile i) (hc1 : ¬atLastTile i)
    (x0 : Vec F S1x64x2048 .f32) (x1 : Vec F S1x2048x512 .f32) (x2 : Vec F S1x2048x512 .f32) (x3 : Vec F S1x512x2048 .f32) (y : S64x2048.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S64x2048.size (by sl_kernel_rfl) y

/-- What the first tile leaves in the scratch: its pieces read back. -/
def sumFirst (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : atFirstTile i) (hc1 : ¬atLastTile i)
    (x0 : Vec F S1x64x2048 .f32) (x1 : Vec F S1x2048x512 .f32) (x2 : Vec F S1x2048x512 .f32) (x3 : Vec F S1x512x2048 .f32) : Vec F S64x2048 .f32 :=
  sumV.read (Elt F) (sumV.writes (Elt F) sumV.junk (runFirst c i arg2 harg2 arg3 harg3 arg4 harg4 arg5 harg5 arg6 harg6 arg7 harg7 hc0 hc1 x0 x1 x2 x3).1)

/-- A middle tile's store into the scratch covers it. -/
theorem cover_mid (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : ¬atLastTile i)
    (x0 : Vec F S1x64x2048 .f32) (x1 : Vec F S1x2048x512 .f32) (x2 : Vec F S1x2048x512 .f32) (x3 : Vec F S1x512x2048 .f32) (acc : Vec F S64x2048 .f32) (y : S64x2048.Idx) :
    ∃ pc ∈ (runMid c i arg2 harg2 arg3 harg3 arg4 harg4 arg5 harg5 arg6 harg6 arg7 harg7 hc0 hc1 x0 x1 x2 x3 acc).1, y ∈ pc.1.set :=
  View.cover_of_tiledL (runMid c i arg2 harg2 arg3 harg3 arg4 harg4 arg5 harg5 arg6 harg6 arg7 harg7 hc0 hc1 x0 x1 x2 x3 acc).1 S64x2048.size (by sl_kernel_rfl) y

/-- What a middle tile leaves in the scratch, over the running sum `acc`. -/
def sumMid (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : ¬atLastTile i)
    (x0 : Vec F S1x64x2048 .f32) (x1 : Vec F S1x2048x512 .f32) (x2 : Vec F S1x2048x512 .f32) (x3 : Vec F S1x512x2048 .f32) (acc : Vec F S64x2048 .f32) : Vec F S64x2048 .f32 :=
  sumV.read (Elt F) (sumV.writes (Elt F) sumV.junk (runMid c i arg2 harg2 arg3 harg3 arg4 harg4 arg5 harg5 arg6 harg6 arg7 harg7 hc0 hc1 x0 x1 x2 x3 acc).1)

/-- The last tile's store into the scratch covers it, -/
theorem cover_lastSum (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) (y : S64x2048.Idx) :
    ∃ pc ∈ (runLast c i arg2 harg2 arg3 harg3 arg4 harg4 arg5 harg5 arg6 harg6 arg7 harg7 hc0 hc1 x0 x1 x2 x3 acc).2.1, y ∈ pc.1.set :=
  View.cover_of_tiledL (runLast c i arg2 harg2 arg3 harg3 arg4 harg4 arg5 harg5 arg6 harg6 arg7 harg7 hc0 hc1 x0 x1 x2 x3 acc).2.1 S64x2048.size (by sl_kernel_rfl) y

/-- and its store into the result's buffer covers that. -/
theorem cover_lastRes (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) (y : S1x64x2048.Idx) :
    ∃ pc ∈ (runLast c i arg2 harg2 arg3 harg3 arg4 harg4 arg5 harg5 arg6 harg6 arg7 harg7 hc0 hc1 x0 x1 x2 x3 acc).1, y ∈ pc.1.set :=
  View.cover_of_tiledL (runLast c i arg2 harg2 arg3 harg3 arg4 harg4 arg5 harg5 arg6 harg6 arg7 harg7 hc0 hc1 x0 x1 x2 x3 acc).1 S1x64x2048.size (by sl_kernel_rfl) y

/-- What the last tile leaves in the scratch, over the running sum `acc`. -/
def sumLast (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) : Vec F S64x2048 .f32 :=
  sumV.read (Elt F) (sumV.writes (Elt F) sumV.junk (runLast c i arg2 harg2 arg3 harg3 arg4 harg4 arg5 harg5 arg6 harg6 arg7 harg7 hc0 hc1 x0 x1 x2 x3 acc).2.1)

/-- What the last tile leaves in the result's buffer. -/
def resLast (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) : Vec F S1x64x2048 .f32 :=
  resV.read (Elt F) (resV.writes (Elt F) resV.junk (runLast c i arg2 harg2 arg3 harg3 arg4 harg4 arg5 harg5 arg6 harg6 arg7 harg7 hc0 hc1 x0 x1 x2 x3 acc).1)

/-! ## The running sum, point by point -/

/-- The scratch after point `t`: at an expert's first tile what that body leaves; at a later tile what its body leaves
    over the scratch after point `t - 1`. -/
def sumAt (c : Dev nD) (t : Fin cfg0.N) : Vec F S64x2048 .f32 :=
  if h0 : t.val % 8 = 0 then
    sumFirst c (grid0.coords t) (tokM t) (tokW t) (gateM t) (gateW t) (upM t) (upW t) (downM t) (downW t) (resM t) (resW t) sumM (Memref.isWhole_whole _) ((atFirstTile_iff t).mpr h0) (fun h => by have := (atLastTile_iff t).mp h; omega) (blockAt m c 0 t) (blockAt m c 1 t) (blockAt m c 2 t) (blockAt m c 3 t)
  else if h1 : t.val % 8 = 7 then
    sumLast c (grid0.coords t) (tokM t) (tokW t) (gateM t) (gateW t) (upM t) (upW t) (downM t) (downW t) (resM t) (resW t) sumM (Memref.isWhole_whole _) (fun h => h0 ((atFirstTile_iff t).mp h)) ((atLastTile_iff t).mpr h1) (blockAt m c 0 t) (blockAt m c 1 t) (blockAt m c 2 t) (blockAt m c 3 t)
      (sumAt c ⟨t.val - 1, Nat.lt_of_le_of_lt (Nat.sub_le _ _) t.isLt⟩)
  else
    sumMid c (grid0.coords t) (tokM t) (tokW t) (gateM t) (gateW t) (upM t) (upW t) (downM t) (downW t) (resM t) (resW t) sumM (Memref.isWhole_whole _) (fun h => h0 ((atFirstTile_iff t).mp h)) (fun h => h1 ((atLastTile_iff t).mp h)) (blockAt m c 0 t) (blockAt m c 1 t) (blockAt m c 2 t) (blockAt m c 3 t)
      (sumAt c ⟨t.val - 1, Nat.lt_of_le_of_lt (Nat.sub_le _ _) t.isLt⟩)
termination_by t.val
decreasing_by all_goals (simp_wf; omega)

theorem sumAt_first (c : Dev nD) (t : Fin cfg0.N) (h0 : t.val % 8 = 0) (h1 : ¬t.val % 8 = 7) :
    sumAt m c t = sumFirst c (grid0.coords t) (tokM t) (tokW t) (gateM t) (gateW t) (upM t) (upW t) (downM t) (downW t) (resM t) (resW t) sumM (Memref.isWhole_whole _) ((atFirstTile_iff t).mpr h0) (fun h => h1 ((atLastTile_iff t).mp h)) (blockAt m c 0 t) (blockAt m c 1 t) (blockAt m c 2 t) (blockAt m c 3 t) := by
  rw [sumAt, dif_pos h0]

theorem sumAt_mid (c : Dev nD) (t : Fin cfg0.N) (h0 : ¬t.val % 8 = 0) (h1 : ¬t.val % 8 = 7) :
    sumAt m c t = sumMid c (grid0.coords t) (tokM t) (tokW t) (gateM t) (gateW t) (upM t) (upW t) (downM t) (downW t) (resM t) (resW t) sumM (Memref.isWhole_whole _) (fun h => h0 ((atFirstTile_iff t).mp h)) (fun h => h1 ((atLastTile_iff t).mp h)) (blockAt m c 0 t) (blockAt m c 1 t) (blockAt m c 2 t) (blockAt m c 3 t)
      (sumAt m c ⟨t.val - 1, Nat.lt_of_le_of_lt (Nat.sub_le _ _) t.isLt⟩) := by
  rw [sumAt, dif_neg h0, dif_neg h1]

theorem sumAt_last (c : Dev nD) (t : Fin cfg0.N) (h0 : ¬t.val % 8 = 0) (h1 : t.val % 8 = 7) :
    sumAt m c t = sumLast c (grid0.coords t) (tokM t) (tokW t) (gateM t) (gateW t) (upM t) (upW t) (downM t) (downW t) (resM t) (resW t) sumM (Memref.isWhole_whole _) (fun h => h0 ((atFirstTile_iff t).mp h)) ((atLastTile_iff t).mpr h1) (blockAt m c 0 t) (blockAt m c 1 t) (blockAt m c 2 t) (blockAt m c 3 t)
      (sumAt m c ⟨t.val - 1, Nat.lt_of_le_of_lt (Nat.sub_le _ _) t.isLt⟩) := by
  rw [sumAt, dif_neg h0, dif_pos h1]

/-- The result's buffer after point `t`: at a last tile what that body stores there; elsewhere nothing is stored (the
    window is idle there and this value is not consulted). -/
def resAt (c : Dev nD) (t : Fin cfg0.N) : Vec F S1x64x2048 .f32 :=
  if h1 : t.val % 8 = 7 then
    resLast c (grid0.coords t) (tokM t) (tokW t) (gateM t) (gateW t) (upM t) (upW t) (downM t) (downW t) (resM t) (resW t) sumM (Memref.isWhole_whole _) (fun h => by have := (atFirstTile_iff t).mp h; omega) ((atLastTile_iff t).mpr h1) (blockAt m c 0 t) (blockAt m c 1 t) (blockAt m c 2 t) (blockAt m c 3 t)
      (sumAt m c ⟨t.val - 1, Nat.lt_of_le_of_lt (Nat.sub_le _ _) t.isLt⟩)
  else resV.read (Elt F) resV.junk

theorem resAt_last (c : Dev nD) (t : Fin cfg0.N) (h0 : ¬t.val % 8 = 0) (h1 : t.val % 8 = 7) :
    resAt m c t = resLast c (grid0.coords t) (tokM t) (tokW t) (gateM t) (gateW t) (upM t) (upW t) (downM t) (downW t) (resM t) (resW t) sumM (Memref.isWhole_whole _) (fun h => h0 ((atFirstTile_iff t).mp h)) ((atLastTile_iff t).mpr h1) (blockAt m c 0 t) (blockAt m c 1 t) (blockAt m c 2 t) (blockAt m c 3 t)
      (sumAt m c ⟨t.val - 1, Nat.lt_of_le_of_lt (Nat.sub_le _ _) t.isLt⟩) := by
  unfold resAt; rw [dif_pos h1]

/-! ## The region's invariant -/

/-- Before position `n`: before the first point the scratch holds anything; afterwards the running sum the point before
    left. The generator register is carried along untouched. -/
def keeps (c : Dev nD) : (n : ℕ) → n ≤ cfg0.N → sProp 𝕄
  | 0, _ => Pipeline.ΦA spec0 c
  | n + 1, hn => iprop(iprop(owns (c : Thread nD τ) sumM fullShare (sumAt m c ⟨n, hn⟩)) ∗ (∃ r, prngReg c r))

theorem keeps_zero (c : Dev nD) (n : ℕ) (h : n ≤ cfg0.N) (hz : n = 0) : keeps m c n h = Pipeline.ΦA spec0 c := by
  subst hz; rfl

theorem keeps_succ (c : Dev nD) (t : Fin cfg0.N) :
    keeps m c (t.val + 1) t.isLt = iprop(iprop(owns (c : Thread nD τ) sumM fullShare (sumAt m c t)) ∗ (∃ r, prngReg c r)) := rfl

theorem keeps_pos (c : Dev nD) (n : ℕ) (h : n ≤ cfg0.N) (hz : n ≠ 0) :
    keeps m c n h = iprop(iprop(owns (c : Thread nD τ) sumM fullShare (sumAt m c ⟨n - 1, by omega⟩)) ∗ (∃ r, prngReg c r)) := by
  cases n with
  | zero => exact absurd rfl hz
  | succ n => rfl

/-! ## The proof data -/

/-- The pipeline's proof data on core `c`. The arrays are the entry contents; after the body each input's buffer holds
    its block and the result's buffer `resAt`; the invariant tracks the running sum. The gate and the up windows read ONE
    array: each holds half of its share, every other input its whole array. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => resAt m c t
  Φ t := keeps m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = atEntry m c (Pipeline.arrRef spec0 w) := by
  dsimp only [dats]

theorem keeps_castSucc (c : Dev nD) (t : Fin cfg0.N) :
    (dats m 0 c).Φ t.castSucc = keeps m c t.val (Nat.le_of_lt t.isLt) := by
  dsimp only [dats]; simp only [Fin.coe_castSucc]

theorem after_tokens (c : Dev nD) (t : Fin cfg0.N) : (dats m 0 c).after 0 t = blockAt m c 0 t := by dsimp only [dats]
theorem after_gate (c : Dev nD) (t : Fin cfg0.N) : (dats m 0 c).after 1 t = blockAt m c 1 t := by dsimp only [dats]
theorem after_up (c : Dev nD) (t : Fin cfg0.N) : (dats m 0 c).after 2 t = blockAt m c 2 t := by dsimp only [dats]
theorem after_down (c : Dev nD) (t : Fin cfg0.N) : (dats m 0 c).after 3 t = blockAt m c 3 t := by dsimp only [dats]
theorem after_result (c : Dev nD) (t : Fin cfg0.N) : (dats m 0 c).after 4 t = resAt m c t := by dsimp only [dats]

theorem before_tokens (c : Dev nD) (t : Fin cfg0.N) (d) : (dats m 0 c).before 0 t d = blockAt m c 0 t :=
  found_tokens m (dats m 0 c) (A_eq m c 0) (after_tokens m c) t d
theorem before_gate (c : Dev nD) (t : Fin cfg0.N) (d) : (dats m 0 c).before 1 t d = blockAt m c 1 t :=
  found_gate m (dats m 0 c) (A_eq m c 1) (after_gate m c) t d
theorem before_up (c : Dev nD) (t : Fin cfg0.N) (d) : (dats m 0 c).before 2 t d = blockAt m c 2 t :=
  found_up m (dats m 0 c) (A_eq m c 2) (after_up m c) t d
theorem before_down (c : Dev nD) (t : Fin cfg0.N) (d) : (dats m 0 c).before 3 t d = blockAt m c 3 t :=
  found_down m (dats m 0 c) (A_eq m c 3) (after_down m c) t d

/-- An input's buffer is left at its block. -/
theorem leaves_tokens (c : Dev nD) (t : Fin cfg0.N) : (dats m 0 c).leavesExact 0 t = owns (c : Thread nD τ) (tokM t) fullShare (blockAt m c 0 t) := by
  unfold Dat.leavesExact; rw [live_tokens t, after_tokens]
theorem leaves_gate (c : Dev nD) (t : Fin cfg0.N) : (dats m 0 c).leavesExact 1 t = owns (c : Thread nD τ) (gateM t) fullShare (blockAt m c 1 t) := by
  unfold Dat.leavesExact; rw [live_gate t, after_gate]
theorem leaves_up (c : Dev nD) (t : Fin cfg0.N) : (dats m 0 c).leavesExact 2 t = owns (c : Thread nD τ) (upM t) fullShare (blockAt m c 2 t) := by
  unfold Dat.leavesExact; rw [live_up t, after_up]
theorem leaves_down (c : Dev nD) (t : Fin cfg0.N) : (dats m 0 c).leavesExact 3 t = owns (c : Thread nD τ) (downM t) fullShare (blockAt m c 3 t) := by
  unfold Dat.leavesExact; rw [live_down t, after_down]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (tokM t) fullShare ((dats m 0 c).before 0 t d))
    ∗ (∃ d, owns (c : Thread nD τ) (gateM t) fullShare ((dats m 0 c).before 1 t d))
    ∗ (∃ d, owns (c : Thread nD τ) (upM t) fullShare ((dats m 0 c).before 2 t d))
    ∗ (∃ d, owns (c : Thread nD τ) (downM t) fullShare ((dats m 0 c).before 3 t d))
    ∗ (∃ d, owns (c : Thread nD τ) (resM t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position in its expert decides the case;
    the invariant hands the body the scratch (at anything before the very first point, else at the running sum) and takes
    it back at this point's sum; the result's buffer is handed back untouched off the last tile and stored at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tokens, before_gate, before_up, before_down]
  rw [show (dats m 0 c).owesAt () t.succ = (dats m 0 c).owesAt () t.castSucc from rfl]
  rw [show (dats m 0 c).Φ t.succ = keeps m c (t.val + 1) t.isLt from rfl, keeps_succ]
  rw [leaves_tokens, leaves_gate, leaves_up, leaves_down]
  have hN : t.val < 128 := lt_of_lt_of_eq t.isLt (show cfg0.N = 128 from N_0)
  by_cases h0 : t.val % 8 = 0
  · have h1 : ¬t.val % 8 = 7 := by omega
    have hf : atFirstTile (grid0.coords t) := (atFirstTile_iff t).mpr h0
    have hnl : ¬atLastTile (grid0.coords t) := fun h => h1 ((atLastTile_iff t).mp h)
    rw [Dat.leavesExact_idle (dats m 0 c) 4 t (idle_result t hnl) (noFlush_result t hnl)]
    rw [sumAt_first m c t h0 h1]
    unfold sumFirst; (try dsimp only)
    by_cases hz : t.val = 0
    · rw [keeps_castSucc m c t, keeps_zero m c _ _ hz, rest_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hf hnl (blockAt m c 0 t) (blockAt m c 1 t) (blockAt m c 2 t) (blockAt m c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [keeps_castSucc m c t, keeps_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hf hnl (blockAt m c 0 t) (blockAt m c 1 t) (blockAt m c 2 t) (blockAt m c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hnf : ¬atFirstTile (grid0.coords t) := fun h => h0 ((atFirstTile_iff t).mp h)
    by_cases h1 : t.val % 8 = 7
    · have hl : atLastTile (grid0.coords t) := (atLastTile_iff t).mpr h1
      rw [show (dats m 0 c).leavesExact 4 t = owns (c : Thread nD τ) (resM t) fullShare ((dats m 0 c).after 4 t) from by
        unfold Dat.leavesExact; rw [live_result t hl], after_result]
      rw [sumAt_last m c t h0 h1, resAt_last m c t h0 h1]
      unfold sumLast resLast; (try dsimp only)
      rw [keeps_castSucc m c t, keeps_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hnf hl (blockAt m c 0 t) (blockAt m c 1 t) (blockAt m c 2 t) (blockAt m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (cover_lastSum c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_lastRes c _ _ _ _ _ _ _ _ _ _ _ _ _ _ _ _ _ _ _ _)
    · have hnl : ¬atLastTile (grid0.coords t) := fun h => h1 ((atLastTile_iff t).mp h)
      rw [Dat.leavesExact_idle (dats m 0 c) 4 t (idle_result t hnl) (noFlush_result t hnl)]
      rw [sumAt_mid m c t h0 h1]
      unfold sumMid; (try dsimp only)
      rw [keeps_castSucc m c t, keeps_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hnf hnl (blockAt m c 0 t) (blockAt m c 1 t) (blockAt m c 2 t) (blockAt m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem keeps_in (c : Dev nD) : Pipeline.ΦA spec0 c ⊢ (dats m 0 c).Φ 0 := by
  rw [show (dats m 0 c).Φ 0 = keeps m c 0 (Nat.zero_le _) from rfl, keeps_zero m c 0 _ rfl]
  try exact Idealize.SL.BI.Entails.refl _

/-- and after the last point the invariant gives it back, the running sum forgotten. -/
theorem keeps_out (c : Dev nD) : (dats m 0 c).Φ (Fin.last cfg0.N) ⊢ Pipeline.ΦA spec0 c := by
  rw [show (dats m 0 c).Φ (Fin.last cfg0.N) = keeps m c (Fin.last cfg0.N).val (Nat.le_of_lt_succ (Fin.last cfg0.N).isLt) from rfl,
    keeps_pos m c _ _ (by rw [Fin.val_last]; have : cfg0.N = 128 := N_0; omega), rest_eq]
  iintro ⟨HS, Hg⟩
  isplitl [HS]
  · iexists _; iexact HS
  iexact Hg

end Cert.KernelIdeal.Moe

end
-- ==== Proof.KI.Launch.lean ====
/-
  The expert kernel's run and frame. The gate and the up windows read one array, so at the region's entry that array's
  share is halved between them; every other array goes whole to its one window. From there the pipeline's rule with the
  body's obligation gives the run: every weakly fair execution ends, each array at what the write-backs leave. The three
  argument arrays are inputs, never written: they end as they began.
-/
import proofs.«111991_j64244120814198_1_alg».proof.Proof.KI.Track
import proofs.«111991_j64244120814198_1_alg».proof.Proof.LibFrameShared
import proofs.«111991_j64244120814198_1_alg».proof.Proof.LibShareSplit

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The entry split: the four buffers behind the five windows, each whole, make the windows' arrays — the weights' array
    split in two halves between the gate window and the up window. -/
theorem entry_split (c : Dev nD) :
    (Pipeline.arrBufs (cfgs 0).spec c (atEntry m c) : sProp 𝕄) ⊢ (dats m 0 c).arrays ((dats m 0 c).arrAt · 0) :=
  Pipeline.arrays_split_pair_halves (dats m 0 c) 1 2 (by decide) rfl (by decide) arr_whole0 rfl rfl rfl rfl
    (fun w h1 h2 _ => by fin_cases w <;> first | rfl | exact absurd rfl h1 | exact absurd rfl h2)
    (atEntry m c) _ (fun w => A_eq m c w)

set_option backward.isDefEq.respectTransparency.types false in
/-- From any memory with zero counters, every weakly fair execution of @main ends, every array of the pipeline at what
    the write-backs leave in it. -/
theorem run_main : θ_run defs (onTc (τ := τ) (main (F := F))) (s₀ m ρ) (Pipeline.FramePost cfgs (dats m) 0 (atEntry m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := atEntry m)
    (hmain := main_is_region m Variants.none) (hsplit := entry_split m) (hin := keeps_in m) (hout := keeps_out m)

/-- The frame: the run ends, and the three argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3))⟩) (run_main m ρ)

end Cert.KernelIdeal.Moe

end
-- ==== Proof.KI.Pieces.lean ====
/-
  What each case of the body leaves, as values: the stores are whole-buffer stores, so the scratch ends at the last
  store's payload — the tile's update of the running sum — and the result's buffer at the sum re-laid with a leading
  unit axis. At a first tile the update is taken over the zero matrix the first store put there.
-/
import proofs.«111991_j64244120814198_1_alg».proof.Proof.KI.Track
import Idealize.ShloMosaic.Lib.Pipeline.Value

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → ℕ) = fun _ => 0 := by funext a; fin_cases a <;> rfl
theorem zeros3 : (![0, 0, 0] : Fin 3 → ℕ) = fun _ => 0 := by funext a; fin_cases a <;> rfl

/-- A middle tile leaves the tile's update of the running sum. -/
theorem sumMid_eq (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : ¬atLastTile i)
    (x0 : Vec F S1x64x2048 .f32) (x1 : Vec F S1x2048x512 .f32) (x2 : Vec F S1x2048x512 .f32) (x3 : Vec F S1x512x2048 .f32) (acc : Vec F S64x2048 .f32) :
    sumMid c i arg2 harg2 arg3 harg3 arg4 harg4 arg5 harg5 arg6 harg6 arg7 harg7 hc0 hc1 x0 x1 x2 x3 acc = k0_pay2 x0 x1 x2 x3 acc := by
  have hz2 := zeros2; have hz3 := zeros3
  unfold sumMid
  rw [View.read_writes_eq_canon _ _ _ (cover_mid c i arg2 harg2 arg3 harg3 arg4 harg4 arg5 harg5 arg6 harg6 arg7 harg7 hc0 hc1 x0 x1 x2 x3 acc)]
  unfold runMid
  dsimp only
  sl_unfold_words
  rw [View.canon_unit_zero (S := S64x2048) hz2]
  simp only [View.readAt_eq_ld, harg2.read_unread, harg3.read_unread, harg4.read_unread, harg5.read_unread, harg7.read_unread,
    View.ld_unit_zero (S := S1x64x2048) hz3, View.ld_unit_zero (S := S1x2048x512) hz3, View.ld_unit_zero (S := S1x512x2048) hz3,
    View.ld_unit_zero (S := S64x2048) hz2]

/-- The last tile leaves the same in the scratch, -/
theorem sumLast_eq (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) :
    sumLast c i arg2 harg2 arg3 harg3 arg4 harg4 arg5 harg5 arg6 harg6 arg7 harg7 hc0 hc1 x0 x1 x2 x3 acc = k0_pay2 x0 x1 x2 x3 acc := by
  have hz2 := zeros2; have hz3 := zeros3
  unfold sumLast
  rw [View.read_writes_eq_canon _ _ _ (cover_lastSum c i arg2 harg2 arg3 harg3 arg4 harg4 arg5 harg5 arg6 harg6 arg7 harg7 hc0 hc1 x0 x1 x2 x3 acc)]
  unfold runLast
  dsimp only
  sl_unfold_words
  rw [View.canon_unit_zero (S := S64x2048) hz2]
  simp only [View.readAt_eq_ld, harg2.read_unread, harg3.read_unread, harg4.read_unread, harg5.read_unread, harg7.read_unread,
    View.ld_unit_zero (S := S1x64x2048) hz3, View.ld_unit_zero (S := S1x2048x512) hz3, View.ld_unit_zero (S := S1x512x2048) hz3,
    View.ld_unit_zero (S := S64x2048) hz2]

/-- and that sum, re-laid, in the result's buffer. -/
theorem resLast_eq (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : ¬atFirstTile i) (hc1 : atLastTile i)
    (x0 : Vec F S1x64x2048 .f32) (x1 : Vec F S1x2048x512 .f32) (x2 : Vec F S1x2048x512 .f32) (x3 : Vec F S1x512x2048 .f32) (acc : Vec F S64x2048 .f32) :
    resLast c i arg2 harg2 arg3 harg3 arg4 harg4 arg5 harg5 arg6 harg6 arg7 harg7 hc0 hc1 x0 x1 x2 x3 acc = k0_pay3 (k0_pay2 x0 x1 x2 x3 acc) := by
  have hz2 := zeros2; have hz3 := zeros3
  unfold resLast
  rw [View.read_writes_eq_canon _ _ _ (cover_lastRes c i arg2 harg2 arg3 harg3 arg4 harg4 arg5 harg5 arg6 harg6 arg7 harg7 hc0 hc1 x0 x1 x2 x3 acc)]
  unfold runLast
  dsimp only
  sl_unfold_words
  rw [View.canon_unit_zero (S := S1x64x2048) hz3]
  simp only [View.readAt_eq_ld, harg2.read_unread, harg3.read_unread, harg4.read_unread, harg5.read_unread, harg7.read_unread,
    View.ld_unit_zero (S := S1x64x2048) hz3, View.ld_unit_zero (S := S1x2048x512) hz3, View.ld_unit_zero (S := S1x512x2048) hz3,
    View.ld_unit_zero (S := S64x2048) hz2, View.readCov_unit_zero (S := S64x2048) _ hz2]

/-- A first tile leaves the tile's update of the zero matrix. -/
theorem sumFirst_eq (c : Dev nD) (i : grid0.Coords) (arg2 : Memref sig .tc .vmem S1x64x2048 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x64x2048 .f32) (harg6 : arg6.IsWhole) (arg7 : Memref sig .tc .vmem S64x2048 .f32) (harg7 : arg7.IsWhole) (hc0 : atFirstTile i) (hc1 : ¬atLastTile i)
    (x0 : Vec F S1x64x2048 .f32) (x1 : Vec F S1x2048x512 .f32) (x2 : Vec F S1x2048x512 .f32) (x3 : Vec F S1x512x2048 .f32) :
    sumFirst c i arg2 harg2 arg3 harg3 arg4 harg4 arg5 harg5 arg6 harg6 arg7 harg7 hc0 hc1 x0 x1 x2 x3 = k0_pay2 x0 x1 x2 x3 (k0_pay1 (F := F)) := by
  have hz2 := zeros2; have hz3 := zeros3
  unfold sumFirst
  rw [View.read_writes_eq_canon _ _ _ (cover_first c i arg2 harg2 arg3 harg3 arg4 harg4 arg5 harg5 arg6 harg6 arg7 harg7 hc0 hc1 x0 x1 x2 x3)]
  unfold runFirst
  dsimp only
  sl_unfold_words
  rw [View.canon_cons_unit_zero (S := S64x2048) hz2]
  simp only [View.readAt_eq_ld, harg2.read_unread, harg3.read_unread, harg4.read_unread, harg5.read_unread, harg7.read_unread,
    View.ld_unit_zero (S := S1x64x2048) hz3, View.ld_unit_zero (S := S1x2048x512) hz3, View.ld_unit_zero (S := S1x512x2048) hz3,
    View.ld_unit_zero (S := S64x2048) hz2, View.readCov_unit_zero (S := S64x2048) _ hz2]

end Cert.KernelIdeal.Moe

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.KI.TileValue.lean ====
/-
  One tile's arithmetic, read at an index, on the extended reals. The body's update of the running sum at row p and
  output column q is the sum so far plus, over the tile's 512 intermediate columns k, of

      (tokens · up column k) · ((tokens · gate column k) · σ(tokens · gate column k)) · (row k of the down block, column q):

  each of the three matrix products a plain sum of products (a product into a zero matrix), the changes of float format
  the identity, the leading unit axis of a loaded block dropped. The reset stores the zero matrix.
-/
import proofs.«111991_j64244120814198_1_alg».proof.Proof.Gen.KernelIdeal.Skeleton
import proofs.«111991_j64244120814198_1_alg».proof.Proof.LibPlainMatmul
import Idealize.ShloMosaic.Lib.ValueLayout
import Idealize.ShloMosaic.Lib.Pipeline.Value
import Idealize.ShloMosaic.PureOps.Ideal.Laws

set_option maxRecDepth 16384

noncomputable section

namespace Cert.KernelIdeal.Moe

open Cert.KernelIdeal Cert.KernelIdeal.Gen
open Idealize.ShloMosaic Idealize.ShloMosaic.ValueIdx
open scoped BigOperators

/-- The reset's payload is the zero matrix. -/
theorem zero_payload (j : S64x2048.Idx) : k0_pay1 (F := Ideal) j = 0 := by
  unfold k0_pay1
  simp only [shapeCast_self]
  show Ideal.ofBits .f32 0x00000000#32 = 0
  exact Ideal.ofBits_zero_f32

/-- The tokens against column k of a 2048 × 512 block of weights: a sum over the 2048 hidden positions. -/
theorem tokens_dot (x0 : Vec Ideal S1x64x2048 .f32) (x : Vec Ideal S1x2048x512 .f32) (p : Fin 64) (k : Fin 512) :
    matmul (F := Ideal) dot_S64x2048_S2048x512_S64x512_1_0_0_1_n_n none
        (truncf .bf16 (shapeCast S64x2048 x0 shapeCasts_S1x64x2048_S64x2048) bitsLt_bf16_f32)
        (truncf .bf16 (shapeCast S2048x512 x shapeCasts_S1x2048x512_S2048x512) bitsLt_bf16_f32)
        (constant (F := Ideal) S64x512 .f32 0x00000000#32) (ix2 p k)
      = ∑ j : Fin 2048, x0 (ix3 (0 : Fin 1) p j) * x (ix3 (0 : Fin 1) j k) :=
  (Cert.LibPlainMatmul.matmul_plain_apply (M := 64) (K := 2048) (N := 512) none _ _ p k).trans
    (Finset.sum_congr rfl fun j _ => by
      rw [truncf_apply, truncf_apply, shapeCast_1ab_ab_apply, shapeCast_1ab_ab_apply])

/-- The tile's update of the running sum, at row p and column q. -/
theorem tile_payload (x0 : Vec Ideal S1x64x2048 .f32) (x1 x2 : Vec Ideal S1x2048x512 .f32) (x3 : Vec Ideal S1x512x2048 .f32)
    (acc : Vec Ideal S64x2048 .f32) (p : Fin 64) (q : Fin 2048) :
    k0_pay2 (F := Ideal) x0 x1 x2 x3 acc (ix2 p q)
      = acc (ix2 p q) + ∑ k : Fin 512,
          ((∑ j : Fin 2048, x0 (ix3 (0 : Fin 1) p j) * x2 (ix3 (0 : Fin 1) j k))
            * ((∑ j : Fin 2048, x0 (ix3 (0 : Fin 1) p j) * x1 (ix3 (0 : Fin 1) j k))
                * Ideal.logistic (∑ j : Fin 2048, x0 (ix3 (0 : Fin 1) p j) * x1 (ix3 (0 : Fin 1) j k))))
          * x3 (ix3 (0 : Fin 1) k q) := by
  unfold k0_pay2
  simp only [shapeCast_self]
  rw [addf_apply]
  refine congrArg (acc (ix2 p q) + ·) ?_
  refine (Cert.LibPlainMatmul.matmul_plain_apply (M := 64) (K := 512) (N := 2048) none _ _ p q).trans
    (Finset.sum_congr rfl fun k _ => ?_)
  rw [truncf_apply, truncf_apply, mulf_apply, mulf_apply,
    show ∀ v : FVec Ideal S64x512 .f32, logistic v (ix2 p k) = Ideal.logistic (v (ix2 p k)) from fun _ => rfl,
    tokens_dot x0 x2 p k, tokens_dot x0 x1 p k, shapeCast_1ab_ab_apply]

/-- The last tile's copy into the result's buffer only adds a leading unit axis. -/
theorem relaid_payload (v : Vec Ideal S64x2048 .f32) (u : Fin 1) (p : Fin 64) (q : Fin 2048) :
    k0_pay3 (F := Ideal) v (ix3 u p q) = v (ix2 p q) := by
  unfold k0_pay3
  exact shapeCast_ab_1ab_apply v _ u p q

end Cert.KernelIdeal.Moe

end
-- ==== Proof.LibBlockSums.lean ====
/-
  Sums over the first rows of consecutive blocks of equal height: the first (s + 1) * B rows are the first s * B rows
  followed by the B rows of block s; no blocks give the empty sum; and a sum over an initial segment of the naturals
  depends only on the segment's length.
-/
import Mathlib.Algebra.BigOperators.Fin

namespace Cert.LibBlockSums

variable {M : Type*} [AddCommMonoid M]

/-- A sum over the naturals below n depends only on the number n, not on how it is written. -/
theorem sum_cast {n n' : Nat} (h : n = n') (f : Nat → M) : ∑ r : Fin n, f r.val = ∑ r : Fin n', f r.val := by
  subst h
  rfl

/-- The naturals below a + b are those below a followed by a + r for r below b. -/
theorem sum_add (a b : Nat) (f : Nat → M) :
    ∑ r : Fin (a + b), f r.val = ∑ r : Fin a, f r.val + ∑ r : Fin b, f (a + r.val) := by
  rw [Fin.sum_univ_add]
  rfl

/-- The first s + 1 blocks of B rows are the first s blocks followed by the rows s * B + r, r below B, of block s. -/
theorem sum_blocks_succ (B s : Nat) (f : Nat → M) :
    ∑ r : Fin ((s + 1) * B), f r.val = ∑ r : Fin (s * B), f r.val + ∑ r : Fin B, f (s * B + r.val) := by
  rw [sum_cast (Nat.succ_mul s B) f, sum_add]

/-- No blocks: the empty sum. -/
theorem sum_blocks_zero (B : Nat) (f : Nat → M) : ∑ r : Fin (0 * B), f r.val = 0 := by
  rw [sum_cast (Nat.zero_mul B) f]
  rfl

/-- Twenty-five blocks of 512 rows are the 12800 rows. -/
theorem sum_blocks_25_512 (f : Nat → M) : ∑ r : Fin (25 * 512), f r.val = ∑ r : Fin 12800, f r.val :=
  sum_cast (show 25 * 512 = 12800 from rfl) f

/-- Twenty-five blocks of 2048 rows are the 51200 rows. -/
theorem sum_blocks_25_2048 (f : Nat → M) : ∑ r : Fin (25 * 2048), f r.val = ∑ r : Fin 51200, f r.val :=
  sum_cast (show 25 * 2048 = 51200 from rfl) f

end Cert.LibBlockSums
-- ==== Proof.LibDotBlocks.lean ====
/-
  A dot product of length N taken K-block by K-block.

  The contracted axis of length N = S * B is walked in S consecutive blocks of B positions.  The sum of the first
  s blocks, as a function of s, starts at zero, grows by block s's own sum, and after all S blocks is the whole sum.
  Only that addition of extended reals commutes and associates is used: no finiteness.

  A summand is given on the N positions; it is extended by zero to every natural so that a position "s * B + r" can
  be written without carrying its bound.
-/
import Mathlib.Data.EReal.Basic
import proofs.«111991_j64244120814198_1_alg».proof.Proof.LibBlockSums

open scoped BigOperators

namespace Cert.LibDotBlocks

/-- A summand on the positions below N, extended by zero. -/
noncomputable def ext0 {N : ℕ} (g : Fin N → EReal) (i : ℕ) : EReal := if h : i < N then g ⟨i, h⟩ else 0

theorem ext0_of_lt {N : ℕ} (g : Fin N → EReal) {i : ℕ} (h : i < N) : ext0 g i = g ⟨i, h⟩ := dif_pos h

theorem ext0_val {N : ℕ} (g : Fin N → EReal) (k : Fin N) : ext0 g k.val = g k := ext0_of_lt g k.isLt

/-- The sum over the first s blocks of B positions. -/
noncomputable def partialSum {N : ℕ} (B : ℕ) (g : Fin N → EReal) (s : ℕ) : EReal := ∑ r : Fin (s * B), ext0 g r.val

/-- No block yet: zero. -/
theorem partialSum_zero {N : ℕ} (B : ℕ) (g : Fin N → EReal) : partialSum B g 0 = 0 :=
  Cert.LibBlockSums.sum_blocks_zero B (ext0 g)

/-- One more block: the sum so far plus the sum over block s. -/
theorem partialSum_succ {N : ℕ} (B : ℕ) (g : Fin N → EReal) (s : ℕ) :
    partialSum B g (s + 1) = partialSum B g s + ∑ r : Fin B, ext0 g (s * B + r.val) :=
  Cert.LibBlockSums.sum_blocks_succ B s (ext0 g)

/-- All S blocks: the whole sum. -/
theorem partialSum_all {N : ℕ} (B : ℕ) (g : Fin N → EReal) (s : ℕ) (h : s * B = N) :
    partialSum B g s = ∑ k : Fin N, g k := by
  unfold partialSum
  rw [Cert.LibBlockSums.sum_cast h (ext0 g)]
  exact Finset.sum_congr rfl fun k _ => ext0_val g k

end Cert.LibDotBlocks
-- ==== Proof.Spec.lean ====
/-
  One layer of sixteen experts, as mathematics. Expert e maps its 64 tokens h[e] (64 × 2048) through the weights
  w[e] (2048 × 8192: the gate projection in the columns below 4096, the up projection in the columns from 4096 on) and
  d[e] (4096 × 2048):

      gate = h·w[:, :4096],   up = h·w[:, 4096:],   act = up · (gate · σ(gate)),   out = act·d,

  σ the logistic function. All of it on the extended reals; sums are finite sums there, and nothing below uses more of
  them than that addition commutes and associates.
  The sum over the 4096 intermediate columns can be taken in eight tiles of 512: `upTo … s` is the sum over the first
  s tiles; it starts at zero, grows by a tile's own sum, and after eight tiles is the whole sum.
-/
import Idealize.ShloMosaic.PureOps.Ideal
import Idealize.ShloMosaic.Lib.ValueIdx
import proofs.«111991_j64244120814198_1_alg».proof.Proof.LibDotBlocks

noncomputable section

open scoped BigOperators

namespace Cert.MoeSpec

open Idealize.ShloMosaic Idealize.ShloMosaic.ValueIdx Cert.LibDotBlocks

/-- The tokens' shape, the two-in-one weights' shape, and the down projection's. -/
abbrev Tok : Shape := ⟨3, ![16, 64, 2048]⟩
abbrev Wts : Shape := ⟨3, ![16, 2048, 8192]⟩
abbrev Dwn : Shape := ⟨3, ![16, 4096, 2048]⟩

/-- Intermediate column k's place in the weights: among the gate columns, and among the up columns. -/
abbrev gateCol (k : Fin 4096) : Fin 8192 := ⟨k.val, by have := k.isLt; omega⟩
abbrev upCol (k : Fin 4096) : Fin 8192 := ⟨4096 + k.val, by have := k.isLt; omega⟩

variable (h : Tok.Idx → EReal) (w : Wts.Idx → EReal) (d : Dwn.Idx → EReal)

/-- Token p of expert e against gate column k. -/
def gate (e : Fin 16) (p : Fin 64) (k : Fin 4096) : EReal := ∑ j : Fin 2048, h (ix3 e p j) * w (ix3 e j (gateCol k))
/-- The same against up column k. -/
def up (e : Fin 16) (p : Fin 64) (k : Fin 4096) : EReal := ∑ j : Fin 2048, h (ix3 e p j) * w (ix3 e j (upCol k))
/-- The gated activation: up · (gate · σ(gate)). -/
def act (e : Fin 16) (p : Fin 64) (k : Fin 4096) : EReal := up h w e p k * (gate h w e p k * Ideal.logistic (gate h w e p k))
/-- Intermediate column k's contribution to output column q. -/
def term (e : Fin 16) (p : Fin 64) (q : Fin 2048) (k : Fin 4096) : EReal := act h w e p k * d (ix3 e k q)
/-- The layer's output. -/
def out (e : Fin 16) (p : Fin 64) (q : Fin 2048) : EReal := ∑ k : Fin 4096, term h w d e p q k

/-- The output's sum over the first s tiles of 512 intermediate columns. -/
def upTo (e : Fin 16) (p : Fin 64) (q : Fin 2048) (s : ℕ) : EReal := partialSum 512 (term h w d e p q) s

theorem upTo_zero (e : Fin 16) (p : Fin 64) (q : Fin 2048) : upTo h w d e p q 0 = 0 := partialSum_zero 512 _

/-- One more tile. -/
theorem upTo_succ (e : Fin 16) (p : Fin 64) (q : Fin 2048) (s : ℕ) (hs : s < 8) :
    upTo h w d e p q (s + 1)
      = upTo h w d e p q s + ∑ r : Fin 512, term h w d e p q ⟨s * 512 + r.val, by have := r.isLt; omega⟩ := by
  unfold upTo
  rw [partialSum_succ]
  exact congrArg _ (Finset.sum_congr rfl fun r _ => ext0_of_lt _ _)

/-- All eight tiles. -/
theorem upTo_all (e : Fin 16) (p : Fin 64) (q : Fin 2048) : upTo h w d e p q 8 = out h w d e p q :=
  partialSum_all 512 _ 8 rfl

end Cert.MoeSpec

end
-- ==== Proof.KI.Value.lean ====
/-
  The idealized kernel's result. Point t works for expert t / 8 on tile t % 8. Read off the arrays, the tokens' block is
  the expert's tokens, the gate block the tile's 512 gate columns, the up block the same columns 4096 further right, the
  down block the tile's 512 rows: so a tile's update adds, at row p and column q, exactly the tile's 512 terms of the
  layer's output sum. By induction on the point the scratch holds the sum over the expert's tiles so far; at the
  last tile that is the whole sum, which the body stores, re-laid, into the result's buffer, and the pipeline writes block
  (expert, 0, 0) of the result array from it. The sixteen last tiles cover the array.
-/
import proofs.«111991_j64244120814198_1_alg».proof.Proof.KI.Pieces
import proofs.«111991_j64244120814198_1_alg».proof.Proof.KI.TileValue
import proofs.«111991_j64244120814198_1_alg».proof.Proof.KI.Launch
import proofs.«111991_j64244120814198_1_alg».proof.Proof.Spec
import Idealize.ShloMosaic.Lib.Pipeline.Value
import Idealize.ShloMosaic.Lib.ValueIdx

set_option maxRecDepth 16384

noncomputable section

namespace Cert.KernelIdeal.Moe

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.MoeSpec
open scoped BigOperators

variable (m : (ℓ : Loc nD τ sig) → Buf (Elt Ideal) ℓ) (ρ : Dev nD → PrngReg)

/-! ## The arrays and the blocks, at their literal types -/

abbrev tokA (c : Dev nD) : Tok.Idx → EReal := atEntry m c main_arg0
abbrev wtsA (c : Dev nD) : Wts.Idx → EReal := atEntry m c main_arg1
abbrev dwnA (c : Dev nD) : Dwn.Idx → EReal := atEntry m c main_arg2

abbrev tokBlk (c : Dev nD) (t : Fin cfg0.N) : Vec Ideal S1x64x2048 .f32 := blockAt m c 0 t
abbrev gateBlk (c : Dev nD) (t : Fin cfg0.N) : Vec Ideal S1x2048x512 .f32 := blockAt m c 1 t
abbrev upBlk (c : Dev nD) (t : Fin cfg0.N) : Vec Ideal S1x2048x512 .f32 := blockAt m c 2 t
abbrev downBlk (c : Dev nD) (t : Fin cfg0.N) : Vec Ideal S1x512x2048 .f32 := blockAt m c 3 t

/-! ## The windows' block indices, decided over the grid -/

theorem tok_index : ∀ t : Fin cfg0.N, win0_0.index t 0 = t.val / 8 ∧ win0_0.index t 1 = 0 ∧ win0_0.index t 2 = 0 :=
  (by decide +kernel : ∀ t : Fin grid0.N, win0_0.index t 0 = t.val / 8 ∧ win0_0.index t 1 = 0 ∧ win0_0.index t 2 = 0)
theorem gate_index : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)
theorem up_index : ∀ t : Fin cfg0.N, win0_2.index t 0 = t.val / 8 ∧ win0_2.index t 1 = 0 ∧ win0_2.index t 2 = t.val % 8 + 8 :=
  (by decide +kernel : ∀ t : Fin grid0.N, win0_2.index t 0 = t.val / 8 ∧ win0_2.index t 1 = 0 ∧ win0_2.index t 2 = t.val % 8 + 8)
theorem down_index : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem res_index : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-! ## The blocks, read off the arrays -/

/-- The tokens' block at point t is expert t / 8's tokens. -/
theorem tokens_block (c : Dev nD) (t : Fin cfg0.N) (e : Fin 16) (he : e.val = t.val / 8) (p : Fin 64) (j : Fin 2048) :
    tokBlk m c t (ix3 (0 : Fin 1) p j) = tokA m c (ix3 e p j) := by
  obtain ⟨h0, h1, h2⟩ := tok_index t
  unfold tokBlk blockAt
  rw [View.read_apply]
  show atEntry m c main_arg0 _ = atEntry m c main_arg0 _
  congr 1
  funext a
  apply Fin.ext
  match a with
  | ⟨0, _⟩ => show win0_0.index t 0 * 1 + 1 * (0 : ℕ) = e.val; rw [h0, he]; omega
  | ⟨1, _⟩ => show win0_0.index t 1 * 64 + 1 * p.val = p.val; rw [h1]; omega
  | ⟨2, _⟩ => show win0_0.index t 2 * 2048 + 1 * j.val = j.val; rw [h2]; omega

/-- Column k of the gate block is gate column K = 512 · (t % 8) + k of the weights. -/
theorem gate_block (c : Dev nD) (t : Fin cfg0.N) (e : Fin 16) (he : e.val = t.val / 8) (K : Fin 4096) (k : Fin 512)
    (hK : K.val = t.val % 8 * 512 + k.val) (j : Fin 2048) :
    gateBlk m c t (ix3 (0 : Fin 1) j k) = wtsA m c (ix3 e j (gateCol K)) := by
  obtain ⟨h0, h1, h2⟩ := gate_index t
  unfold gateBlk blockAt
  rw [View.read_apply]
  show atEntry m c main_arg1 _ = atEntry m c main_arg1 _
  congr 1
  funext a
  apply Fin.ext
  match a with
  | ⟨0, _⟩ => show win0_1.index t 0 * 1 + 1 * (0 : ℕ) = e.val; rw [h0, he]; omega
  | ⟨1, _⟩ => show win0_1.index t 1 * 2048 + 1 * j.val = j.val; rw [h1]; omega
  | ⟨2, _⟩ => show win0_1.index t 2 * 512 + 1 * k.val = K.val; rw [h2, hK]; omega

/-- Column k of the up block is up column K of the weights: 4096 columns to the right of the gate's. -/
theorem up_block (c : Dev nD) (t : Fin cfg0.N) (e : Fin 16) (he : e.val = t.val / 8) (K : Fin 4096) (k : Fin 512)
    (hK : K.val = t.val % 8 * 512 + k.val) (j : Fin 2048) :
    upBlk m c t (ix3 (0 : Fin 1) j k) = wtsA m c (ix3 e j (upCol K)) := by
  obtain ⟨h0, h1, h2⟩ := up_index t
  unfold upBlk blockAt
  rw [View.read_apply]
  show atEntry m c main_arg1 _ = atEntry m c main_arg1 _
  congr 1
  funext a
  apply Fin.ext
  match a with
  | ⟨0, _⟩ => show win0_2.index t 0 * 1 + 1 * (0 : ℕ) = e.val; rw [h0, he]; omega
  | ⟨1, _⟩ => show win0_2.index t 1 * 2048 + 1 * j.val = j.val; rw [h1]; omega
  | ⟨2, _⟩ => show win0_2.index t 2 * 512 + 1 * k.val = 4096 + K.val; rw [h2, hK]; omega

/-- Row k of the down block is row K of the down projection. -/
theorem down_block (c : Dev nD) (t : Fin cfg0.N) (e : Fin 16) (he : e.val = t.val / 8) (K : Fin 4096) (k : Fin 512)
    (hK : K.val = t.val % 8 * 512 + k.val) (q : Fin 2048) :
    downBlk m c t (ix3 (0 : Fin 1) k q) = dwnA m c (ix3 e K q) := by
  obtain ⟨h0, h1, h2⟩ := down_index t
  unfold downBlk blockAt
  rw [View.read_apply]
  show atEntry m c main_arg2 _ = atEntry m c main_arg2 _
  congr 1
  funext a
  apply Fin.ext
  match a with
  | ⟨0, _⟩ => show win0_3.index t 0 * 1 + 1 * (0 : ℕ) = e.val; rw [h0, he]; omega
  | ⟨1, _⟩ => show win0_3.index t 1 * 512 + 1 * k.val = K.val; rw [h1, hK]; omega
  | ⟨2, _⟩ => show win0_3.index t 2 * 2048 + 1 * q.val = q.val; rw [h2]; omega

/-! ## One tile's update is the tile's terms of the output sum -/

theorem update_eq (c : Dev nD) (t : Fin cfg0.N) (e : Fin 16) (he : e.val = t.val / 8) (p : Fin 64) (q : Fin 2048)
    (s : ℕ) (hs : t.val % 8 = s) (hs8 : s < 8) (acc : Vec Ideal S64x2048 .f32) :
    k0_pay2 (F := Ideal) (tokBlk m c t) (gateBlk m c t) (upBlk m c t) (downBlk m c t) acc (ix2 p q)
      = acc (ix2 p q) + ∑ r : Fin 512, term (tokA m c) (wtsA m c) (dwnA m c) e p q ⟨s * 512 + r.val, by have := r.isLt; omega⟩ := by
  rw [tile_payload (tokBlk m c t) (gateBlk m c t) (upBlk m c t) (downBlk m c t) acc p q]
  refine congrArg (acc (ix2 p q) + ·) (Finset.sum_congr rfl fun k _ => ?_)
  obtain ⟨K, hK⟩ : ∃ K : Fin 4096, K.val = t.val % 8 * 512 + k.val := ⟨⟨t.val % 8 * 512 + k.val, by have := k.isLt; omega⟩, rfl⟩
  have eK : (⟨s * 512 + k.val, by have := k.isLt; omega⟩ : Fin 4096) = K := Fin.ext (by rw [hK, hs])
  rw [eK]
  unfold term act gate up
  rw [down_block m c t e he K k hK q]
  simp only [tokens_block m c t e he p, gate_block m c t e he K k hK, up_block m c t e he K k hK]

/-! ## The running sum -/

/-- At an expert's first tile the scratch ends at the tile's update of zero, -/
theorem sumAt_at_first (c : Dev nD) (t : Fin cfg0.N) (h0 : t.val % 8 = 0) :
    sumAt m c t = k0_pay2 (F := Ideal) (tokBlk m c t) (gateBlk m c t) (upBlk m c t) (downBlk m c t) (k0_pay1 (F := Ideal)) := by
  rw [sumAt_first m c t h0 (by omega)]
  exact sumFirst_eq ..

/-- and at a later tile at the tile's update of what the tile before left. -/
theorem sumAt_at_later (c : Dev nD) (t : Fin cfg0.N) (h0 : ¬t.val % 8 = 0) :
    sumAt m c t = k0_pay2 (F := Ideal) (tokBlk m c t) (gateBlk m c t) (upBlk m c t) (downBlk m c t) (sumAt m c ⟨t.val - 1, Nat.lt_of_le_of_lt (Nat.sub_le _ _) t.isLt⟩) := by
  by_cases h1 : t.val % 8 = 7
  · rw [sumAt_last m c t h0 h1]
    exact sumLast_eq ..
  · rw [sumAt_mid m c t h0 h1]
    exact sumMid_eq ..

/-- After tile s of expert e the scratch holds the output's sum over the tiles 0 … s. -/
theorem sumAt_eq (c : Dev nD) : ∀ (n : ℕ) (t : Fin cfg0.N), t.val = n → ∀ (e : Fin 16), e.val = t.val / 8 →
    ∀ (p : Fin 64) (q : Fin 2048) (s : ℕ), t.val % 8 = s →
      sumAt m c t (ix2 p q) = upTo (tokA m c) (wtsA m c) (dwnA m c) e p q (s + 1) := by
  intro n
  induction n with
  | zero =>
    intro t ht e he p q s hs
    have h0 : t.val % 8 = 0 := by omega
    obtain rfl : s = 0 := by omega
    rw [sumAt_at_first m c t h0, update_eq m c t e he p q 0 h0 (by omega), zero_payload,
      upTo_succ _ _ _ e p q 0 (by omega), upTo_zero]
  | succ n ih =>
    intro t ht e he p q s hs
    have hs8 : s < 8 := by omega
    by_cases h0 : t.val % 8 = 0
    · obtain rfl : s = 0 := by omega
      rw [sumAt_at_first m c t h0, update_eq m c t e he p q 0 h0 (by omega), zero_payload,
        upTo_succ _ _ _ e p q 0 (by omega), upTo_zero]
    · rw [sumAt_at_later m c t h0, update_eq m c t e he p q s hs hs8,
        ih ⟨t.val - 1, Nat.lt_of_le_of_lt (Nat.sub_le _ _) t.isLt⟩ (by show t.val - 1 = n; omega) e (by show e.val = (t.val - 1) / 8; omega)
          p q (s - 1) (by show (t.val - 1) % 8 = s - 1; omega),
        show s - 1 + 1 = s from by omega]
      exact (upTo_succ _ _ _ e p q s hs8).symm

/-- At an expert's last tile the result's buffer is given the layer's output for that expert. -/
theorem resAt_eq (c : Dev nD) (t : Fin cfg0.N) (h1 : t.val % 8 = 7) (e : Fin 16) (he : e.val = t.val / 8)
    (u : Fin 1) (p : Fin 64) (q : Fin 2048) :
    resAt m c t (ix3 u p q) = out (tokA m c) (wtsA m c) (dwnA m c) e p q := by
  have h0 : ¬t.val % 8 = 0 := by omega
  rw [resAt_last m c t h0 h1, resLast_eq, relaid_payload]
  refine (congrFun (sumAt_at_later m c t h0).symm (ix2 p q)).trans ?_
  rw [sumAt_eq m c t.val t rfl e he p q 7 h1]
  exact upTo_all _ _ _ e p q

/-! ## The result array -/

/-- The layer's output as contents of the result array. -/
def outArr (c : Dev nD) : Buf (Elt Ideal) ((c : Thread nD τ).loc main_v0) :=
  fun (i : S16x64x2048.Idx) => out (tokA m c) (wtsA m c) (dwnA m c) (i 0) (i 1) (i 2)

/-- What a last tile's point writes back is its block of the output. -/
theorem flushed_eq (c : Dev nD) (t : Fin cfg0.N) (hf : (cfg0.win 4).flush t = true) :
    (dats m 0 c).flushed 4 t = ((cfg0.win 4).blk t).view.read (Elt Ideal) (outArr m c) := by
  have h1 : t.val % 8 = 7 := (flush0_4 t).mp hf
  have hN : t.val < 128 := lt_of_lt_of_eq t.isLt (show cfg0.N = 128 from N_0)
  obtain ⟨r0, r1, r2⟩ := res_index t
  show (cfg0.win 4).cut (grid0.coords t) ((dats m 0 c).after 4 t) = _
  rw [after_result]
  funext y
  obtain ⟨u, p, q, rfl⟩ : ∃ (u : Fin 1) (p : Fin 64) (q : Fin 2048), y = ix3 u p q := ⟨y 0, y 1, y 2, eq_ix3 y⟩
  rw [View.read_apply]
  have hemb : ((cfg0.win 4).blk t).view.emb (ix3 u p q) = ix3 (⟨t.val / 8, by omega⟩ : Fin 16) p q := by
    funext a; apply Fin.ext
    match a with
    | ⟨0, _⟩ => show win0_4.index t 0 * 1 + 1 * u.val = t.val / 8; have := u.isLt; rw [r0]; omega
    | ⟨1, _⟩ => show win0_4.index t 1 * 64 + 1 * p.val = p.val; rw [r1]; omega
    | ⟨2, _⟩ => show win0_4.index t 2 * 2048 + 1 * q.val = q.val; rw [r2]; omega
  show resAt m c t (ix3 u p q) = outArr m c (((cfg0.win 4).blk t).view.emb (ix3 u p q))
  rw [hemb, resAt_eq m c t h1 ⟨t.val / 8, by omega⟩ rfl u p q]
  rfl

/-- An index of the result array lies in point t's block iff each coordinate is in the block's range. -/
theorem mem_resBlk (t : Fin cfg0.N) (i : S16x64x2048.Idx) :
    i ∈ ((cfg0.win 4).blk t).view.set ↔ ∀ a : Fin 3, win0_4.index t a * S1x64x2048.size a ≤ (i a).val ∧ (i a).val < win0_4.index t a * S1x64x2048.size a + S1x64x2048.size a := by
  show i ∈ ((View.whole main_v0).slice (win0_4.rect t)).set ↔ _
  rw [View.set_slice_whole, Rect.mem_set_unit]
  exact Iff.rfl

/-- After the run the result array holds the layer's output: expert e's block is written at point 8e + 7. -/
theorem final_result (c : Dev nD) : (dats m 0 c).arrAt 4 cfg0.N = outArr m c :=
  (dats m 0 c).arrAt_eq_of_cover 4 (outArr m c) (flushed_eq m c) fun i => by
    have hi0 : (i 0).val < 16 := (i 0).isLt
    have hi1 : (i 1).val < 64 := (i 1).isLt
    have hi2 : (i 2).val < 2048 := (i 2).isLt
    have hN : cfg0.N = 128 := N_0
    obtain ⟨t, ht⟩ : ∃ t : Fin cfg0.N, t.val = (i 0).val * 8 + 7 := ⟨⟨(i 0).val * 8 + 7, by omega⟩, rfl⟩
    obtain ⟨r0, r1, r2⟩ := res_index t
    refine ⟨t, (flush0_4 t).mpr (by omega), ?_⟩
    rw [mem_resBlk]
    intro a
    match a with
    | ⟨0, _⟩ => show win0_4.index t 0 * 1 ≤ (i 0).val ∧ (i 0).val < win0_4.index t 0 * 1 + 1; rw [r0]; omega
    | ⟨1, _⟩ => show win0_4.index t 1 * 64 ≤ (i 1).val ∧ (i 1).val < win0_4.index t 1 * 64 + 64; rw [r1]; omega
    | ⟨2, _⟩ => show win0_4.index t 2 * 2048 ≤ (i 2).val ∧ (i 2).val < win0_4.index t 2 * 2048 + 2048; rw [r2]; omega

/-- The run, read: the result array at the layer's output, the arguments unchanged. -/
theorem run : θ_run defs (onTc (τ := τ) (main (F := Ideal))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans (final_result m c),
     ((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3))⟩) (run_main m ρ)

end Cert.KernelIdeal.Moe

end
-- ==== Proof.LibSpelledLogistic.lean ====
/-
  The logistic function spelled out on the extended reals. A program that writes σ(z) as 1 / (1 + e^(−z)) with the
  float literal 1.0 for both ones computes the logistic function of z at every extended real, the infinities included:
  the literal denotes the number one, and the logistic function is by definition that quotient.
-/
import Idealize.ShloMosaic.PureOps.Ideal

noncomputable section

namespace Cert.LibSpelledLogistic

open Idealize.ShloMosaic

/-- The float word of 1.0 denotes the real number one. -/
theorem word_one : Ideal.ofBits .f32 0x3F800000#32 = 1 := by
  simp [Ideal.ofBits, Ideal.ieee, -EReal.coe_mul]; norm_num

/-- The quotient 1 / (1 + e^(−z)) spelled with the word of 1.0 twice is the logistic function of z. -/
theorem spelled_logistic (z : EReal) :
    Ideal.div (Ideal.ofBits .f32 0x3F800000#32) (Ideal.ofBits .f32 0x3F800000#32 + Ideal.exp (-z)) = Ideal.logistic z := by
  rw [word_one]; rfl

end Cert.LibSpelledLogistic

end
-- ==== Proof.RefValue.lean ====
/-
  The reference computes the layer's output. Read one operation at a time at an index: the first product's gate half
  and up half are the sums `gate` and `up` (the two slices pick columns k and 4096 + k of the 8192), the function
  jax outlined for silu spells the logistic function as 1 / (1 + e^(−z)) with the literal 1.0 twice, and the last product
  sums the gated activation against the down projection over all 4096 intermediate columns.
-/
import proofs.«111991_j64244120814198_1_alg».proof.Proof.Gen.ReferenceIdeal.Read
import proofs.«111991_j64244120814198_1_alg».proof.Proof.Spec
import proofs.«111991_j64244120814198_1_alg».proof.Proof.LibSpelledLogistic

noncomputable section

namespace Cert.ReferenceIdeal.RefValue

open Cert.ReferenceIdeal Cert.ReferenceIdeal.Gen Cert.ReferenceIdeal.Read
open Idealize.ShloMosaic Idealize.ShloMosaic.ValueIdx Cert.MoeSpec
open scoped BigOperators

variable (x0 : (⟨S16x64x2048, .f32⟩ : BufTy).Contents (Elt Ideal)) (x1 : (⟨S16x2048x8192, .f32⟩ : BufTy).Contents (Elt Ideal))
  (x2 : (⟨S16x4096x2048, .f32⟩ : BufTy).Contents (Elt Ideal))

/-- The gate half of the first product. -/
theorem gate_read (e : Fin 16) (p : Fin 64) (k : Fin 4096) :
    val_main_v1 (F := Ideal) x0 x1 (ix3 e p k) = gate x0 x1 e p k := by
  rw [val_main_v1_apply, val_main_v0_apply]
  unfold gate
  refine Finset.sum_congr rfl fun j _ => ?_
  have el : lidx_main_v0 (idx_main_v1 (ix3 e p k)) j = ix3 e p j :=
    funext fun a => by match a with | ⟨0, _⟩ => rfl | ⟨1, _⟩ => rfl | ⟨2, _⟩ => rfl
  have er : ridx_main_v0 (idx_main_v1 (ix3 e p k)) j = ix3 e j (gateCol k) :=
    funext fun a => by match a with | ⟨0, _⟩ => rfl | ⟨1, _⟩ => rfl | ⟨2, _⟩ => rfl
  rw [el, er]

/-- The up half. -/
theorem up_read (e : Fin 16) (p : Fin 64) (k : Fin 4096) :
    val_main_v2 (F := Ideal) x0 x1 (ix3 e p k) = up x0 x1 e p k := by
  rw [val_main_v2_apply, val_main_v0_apply]
  unfold up
  refine Finset.sum_congr rfl fun j _ => ?_
  have el : lidx_main_v0 (idx_main_v2 (ix3 e p k)) j = ix3 e p j :=
    funext fun a => by match a with | ⟨0, _⟩ => rfl | ⟨1, _⟩ => rfl | ⟨2, _⟩ => rfl
  have er : ridx_main_v0 (idx_main_v2 (ix3 e p k)) j = ix3 e j (upCol k) :=
    funext fun a => by match a with | ⟨0, _⟩ => rfl | ⟨1, _⟩ => rfl | ⟨2, _⟩ => rfl
  rw [el, er]

/-- The gated activation: the outlined silu is gate · σ(gate). -/
theorem act_read (e : Fin 16) (p : Fin 64) (k : Fin 4096) :
    val_main_v4 (F := Ideal) x0 x1 (ix3 e p k) = act x0 x1 e p k := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, up_read, gate_read]
  unfold act
  simp only [Ideal.mulf_def, Ideal.hostDivf_def, Ideal.addf_def, Ideal.hostUnary_exp_def, Ideal.hostNegf_def, Ideal.negf_def,
    Ideal.ofBits_def]
  rw [Cert.LibSpelledLogistic.spelled_logistic]

/-- The reference's result, at expert e, token p, output column q. -/
theorem out_read (e : Fin 16) (p : Fin 64) (q : Fin 2048) :
    val_main_v5 (F := Ideal) x0 x1 x2 (ix3 e p q) = out x0 x1 x2 e p q := by
  rw [val_main_v5_apply]
  unfold out term
  refine Finset.sum_congr rfl fun k _ => ?_
  have el : lidx_main_v5 (ix3 e p q) k = ix3 e p k :=
    funext fun a => by match a with | ⟨0, _⟩ => rfl | ⟨1, _⟩ => rfl | ⟨2, _⟩ => rfl
  have er : ridx_main_v5 (ix3 e p q) k = ix3 e k q :=
    funext fun a => by match a with | ⟨0, _⟩ => rfl | ⟨1, _⟩ => rfl | ⟨2, _⟩ => rfl
  rw [el, er, act_read]

end Cert.ReferenceIdeal.RefValue

end
-- ==== Proof.lean ====
/-
  A layer of sixteen experts, each mapping its 64 tokens through a gate and an up projection, the gated activation
  up · (gate · σ(gate)), and a down projection — computed by a kernel that walks each expert's 4096 intermediate columns
  in eight tiles of 512, adding each tile's partial product to a running sum kept in scratch memory, against the plain
  formulation with two whole matrix products.

  On the extended reals the two are one function: a change of float format is the identity, a matrix product into a zero
  matrix is the sum of products, the logistic function is 1 / (1 + e^(−z)) by definition, and a sum over 4096 columns is
  the sum over eight tiles of the sums inside each tile — addition commutes and associates, and nothing more is used, so
  the inputs' finiteness is never opened.

  The kernel reads one array (gate and up weights side by side) through two windows; at the region's entry that array's
  share is split between them. Both printed kernels (word level and idealized) run to the end, fault nowhere and leave
  their arguments unchanged; the idealized kernel's result array ends at the layer's output, and so does the reference's.
-/
import proofs.«111991_j64244120814198_1_alg».proof.Defs
import proofs.«111991_j64244120814198_1_alg».proof.Proof.Gen.Kernel
import proofs.«111991_j64244120814198_1_alg».proof.Proof.Gen.KernelIdeal
import proofs.«111991_j64244120814198_1_alg».proof.Proof.Gen.ReferenceIdeal
import proofs.«111991_j64244120814198_1_alg».proof.Proof.Gen.Pre_finite_inputs
import proofs.«111991_j64244120814198_1_alg».proof.Proof.Gen.ReferenceIdeal.Run
import proofs.«111991_j64244120814198_1_alg».proof.Proof.Gen.ReferenceIdeal.Read
import proofs.«111991_j64244120814198_1_alg».proof.Proof.K.Launch
import proofs.«111991_j64244120814198_1_alg».proof.Proof.KI.Launch
import proofs.«111991_j64244120814198_1_alg».proof.Proof.KI.Value
import proofs.«111991_j64244120814198_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs, faults nowhere, and leaves its arguments unchanged. -/
theorem frame_k [hK : Cert.Kernel.Facts] [hP : Cert.Pre_finite_inputs.Facts] : Cert.frame_Kernel :=
  fun m ρ _ => Cert.Kernel.Moe.frame m ρ

/-- So does the idealized kernel. -/
theorem frame_ki [hK : Cert.KernelIdeal.Facts] [hP : Cert.Pre_finite_inputs.Facts] : Cert.frame_KernelIdeal :=
  fun m ρ _ => Cert.KernelIdeal.Moe.frame m ρ

/-- And the reference: its run, the result dropped. -/
theorem frame_ri [hR : Cert.ReferenceIdeal.Facts] [hP : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments, both idealized programs end with the layer's output in their result. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.KernelIdeal.Moe.outArr m c, Cert.KernelIdeal.Moe.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2]
  funext i
  obtain ⟨e, p, q, rfl⟩ : ∃ (e : Fin 16) (p : Fin 64) (q : Fin 2048), i = ix3 e p q := ⟨i 0, i 1, i 2, eq_ix3 i⟩
  rw [Cert.ReferenceIdeal.RefValue.out_read]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
